-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S8x512 : Shape := ⟨2, ![8, 512]⟩
abbrev S1024x256 : Shape := ⟨2, ![1024, 256]⟩
abbrev S512x256 : Shape := ⟨2, ![512, 256]⟩
abbrev S256x1024 : Shape := ⟨2, ![256, 1024]⟩
abbrev S512x1024 : Shape := ⟨2, ![512, 1024]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S8x512 : S_.BroadcastsInDim S8x512 (![] : Fin 0 → Fin S8x512.rank)
  reducesTo_S8x512_S_d0_1 : S8x512.ReducesTo [0, 1] S_
  bcast_S_S1024x256 : S_.BroadcastsInDim S1024x256 (![] : Fin 0 → Fin S1024x256.rank)
  reducesTo_S1024x256_S_d0_1 : S1024x256.ReducesTo [0, 1] S_
  bcast_S_S512x256 : S_.BroadcastsInDim S512x256 (![] : Fin 0 → Fin S512x256.rank)
  reducesTo_S512x256_S_d0_1 : S512x256.ReducesTo [0, 1] S_
  bcast_S_S256x1024 : S_.BroadcastsInDim S256x1024 (![] : Fin 0 → Fin S256x1024.rank)
  reducesTo_S256x1024_S_d0_1 : S256x1024.ReducesTo [0, 1] S_
  bcast_S_S512x1024 : S_.BroadcastsInDim S512x1024 (![] : Fin 0 → Fin S512x1024.rank)
  reducesTo_S512x1024_S_d0_1 : S512x1024.ReducesTo [0, 1] S_

variable [Facts]

def fn_part2 {F : FTy → Type} [FloatOps F] (main_arg7 : FVec F S512x1024 .f32) (main_v33 : IVec S_ 1) : IVec S_ 1 :=
  let main_v34 : FVec F S512x1024 .f32 := Host.absf main_arg7
  let main_cst_12 : FVec F S_ .f32 := constant S_ .f32 0x7F800000#32
  let main_v35 : FVec F S512x1024 .f32 := broadcastInDim S512x1024 ![] bcast_S_S512x1024 main_cst_12
  let main_v36 : IVec S512x1024 1 := cmpf .olt main_v34 main_v35
  let main_c_13 : IVec S_ 1 := constantI S_ 1 1#1
  let main_v37 : IVec S_ 1 := (fun x v => Host.reduce IntOp.andi x v reducesTo_S512x1024_S_d0_1 h_S_) main_v36 main_c_13
  let main_v38 : IVec S_ 1 := andi main_v33 main_v37
  main_v38

def fn_part1 {F : FTy → Type} [FloatOps F] (main_arg4 : FVec F S512x256 .f32) (main_arg5 : FVec F S256x1024 .f32) (main_arg6 : FVec F S512x1024 .f32) (main_arg7 : FVec F S512x1024 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S512x256 .f32 := Host.absf main_arg4
  let main_cst_6 : FVec F S_ .f32 := constant S_ .f32 0x7F800000#32
  let main_v20 : FVec F S512x256 .f32 := broadcastInDim S512x256 ![] bcast_S_S512x256 main_cst_6
  let main_v21 : IVec S512x256 1 := cmpf .olt main_v19 main_v20
  let main_c_7 : IVec S_ 1 := constantI S_ 1 1#1
  let main_v22 : IVec S_ 1 := (fun x v => Host.reduce IntOp.andi x v reducesTo_S512x256_S_d0_1 h_S_) main_v21 main_c_7
  let main_v23 : IVec S_ 1 := andi main_v18 main_v22
  let main_v24 : FVec F S256x1024 .f32 := Host.absf main_arg5
  let main_cst_8 : FVec F S_ .f32 := constant S_ .f32 0x7F800000#32
  let main_v25 : FVec F S256x1024 .f32 := broadcastInDim S256x1024 ![] bcast_S_S256x1024 main_cst_8
  let main_v26 : IVec S256x1024 1 := cmpf .olt main_v24 main_v25
  let main_c_9 : IVec S_ 1 := constantI S_ 1 1#1
  let main_v27 : IVec S_ 1 := (fun x v => Host.reduce IntOp.andi x v reducesTo_S256x1024_S_d0_1 h_S_) main_v26 main_c_9
  let main_v28 : IVec S_ 1 := andi main_v23 main_v27
  let main_v29 : FVec F S512x1024 .f32 := Host.absf main_arg6
  let main_cst_10 : FVec F S_ .f32 := constant S_ .f32 0x7F800000#32
  let main_v30 : FVec F S512x1024 .f32 := broadcastInDim S512x1024 ![] bcast_S_S512x1024 main_cst_10
  let main_v31 : IVec S512x1024 1 := cmpf .olt main_v29 main_v30
  let main_c_11 : IVec S_ 1 := constantI S_ 1 1#1
  let main_v32 : IVec S_ 1 := (fun x v => Host.reduce IntOp.andi x v reducesTo_S512x1024_S_d0_1 h_S_) main_v31 main_c_11
  let main_v33 : IVec S_ 1 := andi main_v28 main_v32
  fn_part2 (F := F) main_arg7 main_v33

def fn {F : FTy → Type} [FloatOps F] (main_arg0 : FVec F S8x4096x1024 .f32) (main_arg1 : FVec F S8x512 .f32) (main_arg2 : FVec F S1024x256 .f32) (main_arg3 : FVec F S512x256 .f32) (main_arg4 : FVec F S512x256 .f32) (main_arg5 : FVec F S256x1024 .f32) (main_arg6 : FVec F S512x1024 .f32) (main_arg7 : FVec F S512x1024 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S8x512 .f32 := Host.absf main_arg1
  let main_cst_0 : FVec F S_ .f32 := constant S_ .f32 0x7F800000#32
  let main_v5 : FVec F S8x512 .f32 := broadcastInDim S8x512 ![] bcast_S_S8x512 main_cst_0
  let main_v6 : IVec S8x512 1 := cmpf .olt main_v4 main_v5
  let main_c_1 : IVec S_ 1 := constantI S_ 1 1#1
  let main_v7 : IVec S_ 1 := (fun x v => Host.reduce IntOp.andi x v reducesTo_S8x512_S_d0_1 h_S_) main_v6 main_c_1
  let main_v8 : IVec S_ 1 := andi main_v3 main_v7
  let main_v9 : FVec F S1024x256 .f32 := Host.absf main_arg2
  let main_cst_2 : FVec F S_ .f32 := constant S_ .f32 0x7F800000#32
  let main_v10 : FVec F S1024x256 .f32 := broadcastInDim S1024x256 ![] bcast_S_S1024x256 main_cst_2
  let main_v11 : IVec S1024x256 1 := cmpf .olt main_v9 main_v10
  let main_c_3 : IVec S_ 1 := constantI S_ 1 1#1
  let main_v12 : IVec S_ 1 := (fun x v => Host.reduce IntOp.andi x v reducesTo_S1024x256_S_d0_1 h_S_) main_v11 main_c_3
  let main_v13 : IVec S_ 1 := andi main_v8 main_v12
  let main_v14 : FVec F S512x256 .f32 := Host.absf main_arg3
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg4 main_arg5 main_arg6 main_arg7 main_v13 main_v16
-- ==== Kernel.lean ====
abbrev S8x4096x1024 : Shape := ⟨3, ![8, 4096, 1024]⟩
abbrev S8x512 : Shape := ⟨2, ![8, 512]⟩
abbrev S1024x256 : Shape := ⟨2, ![1024, 256]⟩
abbrev S512x256 : Shape := ⟨2, ![512, 256]⟩
abbrev S256x1024 : Shape := ⟨2, ![256, 1024]⟩
abbrev S512x1024 : Shape := ⟨2, ![512, 1024]⟩
abbrev S8x256 : Shape := ⟨2, ![8, 256]⟩
abbrev S8x1024 : Shape := ⟨2, ![8, 1024]⟩
abbrev S1x1024x1024 : Shape := ⟨3, ![1, 1024, 1024]⟩
abbrev S1024x1024 : Shape := ⟨2, ![1024, 1024]⟩
abbrev S1024 : Shape := ⟨1, ![1024]⟩
abbrev S1024x1 : Shape := ⟨2, ![1024, 1]⟩
abbrev S1x256 : Shape := ⟨2, ![1, 256]⟩
abbrev S256 : Shape := ⟨1, ![256]⟩
abbrev S1x1024 : Shape := ⟨2, ![1, 1024]⟩

abbrev nBuf : Space → Nat
  | .hbm => 15
  | .vmem => 10
  | .smem => 0
  | _ => 0

abbrev bufTy : (tb : Table) → Fin (tcTables nBuf tb) → BufTy
  | .hbm, ⟨0, _⟩ => ⟨S8x4096x1024, .f32⟩
  | .hbm, ⟨1, _⟩ => ⟨S8x512, .f32⟩
  | .hbm, ⟨2, _⟩ => ⟨S1024x256, .f32⟩
  | .hbm, ⟨3, _⟩ => ⟨S512x256, .f32⟩
  | .hbm, ⟨4, _⟩ => ⟨S512x256, .f32⟩
  | .hbm, ⟨5, _⟩ => ⟨S256x1024, .f32⟩
  | .hbm, ⟨6, _⟩ => ⟨S512x1024, .f32⟩
  | .hbm, ⟨7, _⟩ => ⟨S512x1024, .f32⟩
  | .hbm, ⟨8, _⟩ => ⟨S8x256, .f32⟩
  | .hbm, ⟨9, _⟩ => ⟨S8x256, .f32⟩
  | .hbm, ⟨10, _⟩ => ⟨S8x1024, .f32⟩
  | .hbm, ⟨11, _⟩ => ⟨S8x1024, .f32⟩
  | .hbm, ⟨12, _⟩ => ⟨S1024x256, .bf16⟩
  | .hbm, ⟨13, _⟩ => ⟨S256x1024, .bf16⟩
  | .hbm, ⟨14, _⟩ => ⟨S8x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1024x256, .bf16⟩
  | .local _ .vmem, ⟨3, _⟩ => ⟨S256x1024, .bf16⟩
  | .local _ .vmem, ⟨4, _⟩ => ⟨S8x256, .f32⟩
  | .local _ .vmem, ⟨5, _⟩ => ⟨S8x256, .f32⟩
  | .local _ .vmem, ⟨6, _⟩ => ⟨S8x1024, .f32⟩
  | .local _ .vmem, ⟨7, _⟩ => ⟨S8x1024, .f32⟩
  | .local _ .vmem, ⟨8, _⟩ => ⟨S1x1024x1024, .f32⟩
  | .local _ .vmem, ⟨9, _⟩ => ⟨S1x1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨2, ![8, 4], ![false, false]⟩

def k0_off1 (i : grid0.Coords) : Fin 2 → Nat :=
  let arg0 : BitVec 32 := BitVec.ofNat 32 (i 0).val
  let v8 : Index := Scalar.indexCast arg0
  let c0_5 : Index := 0#32
  ![v8.toNat, 0]
def k0_off2 (i : grid0.Coords) : Fin 2 → Nat :=
  let arg0 : BitVec 32 := BitVec.ofNat 32 (i 0).val
  let v30 : Index := Scalar.indexCast arg0
  let c0_12 : Index := 0#32
  ![v30.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  bitsLt_bf16_f32 : FTy.bits .bf16 < FTy.bits .f32
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  reduces_S1024x1024_S1024 : S1024x1024.Reduces [1] S1024
  shapeCasts_S1024_S1024x1 : S1024.ShapeCasts S1024x1
  h_S1x256 : 0 < S1x256.numel
  shapeCasts_S1x256_S256 : S1x256.ShapeCasts S256
  shapeCasts_S256_S1x256 : S256.ShapeCasts S1x256
  broadcasts_S1x256_S1024x256 : S1x256.Broadcasts S1024x256
  broadcasts_S1024x1_S1024x256 : S1024x1.Broadcasts S1024x256
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  reduces_S1024x256_S1024 : S1024x256.Reduces [1] S1024
  h_S1x1024 : 0 < S1x1024.numel
  shapeCasts_S1x1024_S1024 : S1x1024.ShapeCasts S1024
  shapeCasts_S1024_S1x1024 : S1024.ShapeCasts S1x1024
  broadcasts_S1x1024_S1024x1024 : S1x1024.Broadcasts S1024x1024
  broadcasts_S1024x1_S1024x1024 : S1024x1.Broadcasts S1024x1024
  shapeCasts_S1024x1024_S1x1024x1024 : S1024x1024.ShapeCasts S1x1024x1024
  dot_S8x512_S512x256_S8x256_1_0_0_1_n_n_wf : DotDims.WF S8x512 S512x256 S8x256 [1] [0] [0] [1] [] []
  dot_S8x512_S512x1024_S8x1024_1_0_0_1_n_n_wf : DotDims.WF S8x512 S512x1024 S8x1024 [1] [0] [0] [1] [] []
  dot_S1024x1024_S1024x256_S1024x256_1_0_0_1_n_n_wf : DotDims.WF S1024x1024 S1024x256 S1024x256 [1] [0] [0] [1] [] []
  dot_S1024x256_S256x1024_S1024x1024_1_0_0_1_n_n_wf : DotDims.WF S1024x256 S256x1024 S1024x1024 [1] [0] [0] [1] [] []
  hrank0 : 0 < grid0.rank
  k0_off1_inb : ∀ i : grid0.Coords, ∀ a, (k0_off1 i) a + S1x256.size a ≤ S8x256.size a
  k0_off2_inb : ∀ i : grid0.Coords, ∀ a, (k0_off2 i) a + S1x1024.size a ≤ S8x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S8x4096x1024.size a
  hwx0_0 : ∀ i : grid0.Coords, EltTy.bits .f32 = 32 ∨ (Rect.block (s := S8x4096x1024) S1x1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S1024x256.size a
  hwx0_1 : ∀ i : grid0.Coords, EltTy.bits .bf16 = 32 ∨ (Rect.block (s := S1024x256) S1024x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S256x1024.size a
  hwx0_2 : ∀ i : grid0.Coords, EltTy.bits .bf16 = 32 ∨ (Rect.block (s := S256x1024) S256x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x256.size a ≤ S8x256.size a
  hwx0_3 : ∀ i : grid0.Coords, EltTy.bits .f32 = 32 ∨ (Rect.block (s := S8x256) S8x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x256.size a ≤ S8x256.size a
  hwx0_4 : ∀ i : grid0.Coords, EltTy.bits .f32 = 32 ∨ (Rect.block (s := S8x256) S8x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8x1024.size a ≤ S8x1024.size a
  hwx0_5 : ∀ i : grid0.Coords, EltTy.bits .f32 = 32 ∨ (Rect.block (s := S8x1024) S8x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S8x1024.size a ≤ S8x1024.size a
  hwx0_6 : ∀ i : grid0.Coords, EltTy.bits .f32 = 32 ∨ (Rect.block (s := S8x1024) S8x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1024x1024.size a ≤ S8x4096x1024.size a
  hwx0_7 : ∀ i : grid0.Coords, EltTy.bits .f32 = 32 ∨ (Rect.block (s := S8x4096x1024) S1x1024x1024.size (cc0_transform_7 i) (hinb0_7 i)).WholeWords (EltTy.packing .f32)

variable [Facts₀]

def dot_S8x512_S512x256_S8x256_1_0_0_1_n_n : DotDims S8x512 S512x256 S8x256 where
  lhsContracting := [1]
  rhsContracting := [0]
  lhsNonContracting := [0]
  rhsNonContracting := [1]
  lhsBatch := []
  rhsBatch := []
  wf := dot_S8x512_S512x256_S8x256_1_0_0_1_n_n_wf
def dot_S8x512_S512x1024_S8x1024_1_0_0_1_n_n : DotDims S8x512 S512x1024 S8x1024 where
  lhsContracting := [1]
  rhsContracting := [0]
  lhsNonContracting := [0]
  rhsNonContracting := [1]
  lhsBatch := []
  rhsBatch := []
  wf := dot_S8x512_S512x1024_S8x1024_1_0_0_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S256x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S8x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S8x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S8x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S8x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S1x1024x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8x4096x1024 : Shape := ⟨3, ![8, 4096, 1024]⟩
abbrev S8x512 : Shape := ⟨2, ![8, 512]⟩
abbrev S1024x256 : Shape := ⟨2, ![1024, 256]⟩
abbrev S512x256 : Shape := ⟨2, ![512, 256]⟩
abbrev S256x1024 : Shape := ⟨2, ![256, 1024]⟩
abbrev S512x1024 : Shape := ⟨2, ![512, 1024]⟩
abbrev S8x256 : Shape := ⟨2, ![8, 256]⟩
abbrev S8x1024 : Shape := ⟨2, ![8, 1024]⟩
abbrev S1x1024x256 : Shape := ⟨3, ![1, 1024, 256]⟩
abbrev S8x1x256 : Shape := ⟨3, ![8, 1, 256]⟩
abbrev S8x1024x256 : Shape := ⟨3, ![8, 1024, 256]⟩
abbrev S8x4096x256 : Shape := ⟨3, ![8, 4096, 256]⟩
abbrev S_ : Shape := ⟨0, ![]⟩
abbrev S1x256x1024 : Shape := ⟨3, ![1, 256, 1024]⟩
abbrev S8x1x1024 : Shape := ⟨3, ![8, 1, 1024]⟩
abbrev S8x256x1024 : Shape := ⟨3, ![8, 256, 1024]⟩

abbrev nBuf : Space → Nat
  | .hbm => 34
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x512, .f32⟩
  | .hbm, ⟨2, _⟩ => ⟨S1024x256, .f32⟩
  | .hbm, ⟨3, _⟩ => ⟨S512x256, .f32⟩
  | .hbm, ⟨4, _⟩ => ⟨S512x256, .f32⟩
  | .hbm, ⟨5, _⟩ => ⟨S256x1024, .f32⟩
  | .hbm, ⟨6, _⟩ => ⟨S512x1024, .f32⟩
  | .hbm, ⟨7, _⟩ => ⟨S512x1024, .f32⟩
  | .hbm, ⟨8, _⟩ => ⟨S8x256, .f32⟩
  | .hbm, ⟨9, _⟩ => ⟨S8x256, .f32⟩
  | .hbm, ⟨10, _⟩ => ⟨S8x1024, .f32⟩
  | .hbm, ⟨11, _⟩ => ⟨S8x1024, .f32⟩
  | .hbm, ⟨12, _⟩ => ⟨S1x1024x256, .f32⟩
  | .hbm, ⟨13, _⟩ => ⟨S8x1x256, .f32⟩
  | .hbm, ⟨14, _⟩ => ⟨S8x1024x256, .f32⟩
  | .hbm, ⟨15, _⟩ => ⟨S8x1024x256, .f32⟩
  | .hbm, ⟨16, _⟩ => ⟨S8x1024x256, .f32⟩
  | .hbm, ⟨17, _⟩ => ⟨S8x1x256, .f32⟩
  | .hbm, ⟨18, _⟩ => ⟨S8x1024x256, .f32⟩
  | .hbm, ⟨19, _⟩ => ⟨S8x1024x256, .f32⟩
  | .hbm, ⟨20, _⟩ => ⟨S8x4096x256, .f32⟩
  | .hbm, ⟨21, _⟩ => ⟨S_, .f32⟩
  | .hbm, ⟨22, _⟩ => ⟨S8x4096x256, .f32⟩
  | .hbm, ⟨23, _⟩ => ⟨S8x4096x256, .f32⟩
  | .hbm, ⟨24, _⟩ => ⟨S1x256x1024, .f32⟩
  | .hbm, ⟨25, _⟩ => ⟨S8x1x1024, .f32⟩
  | .hbm, ⟨26, _⟩ => ⟨S8x256x1024, .f32⟩
  | .hbm, ⟨27, _⟩ => ⟨S8x256x1024, .f32⟩
  | .hbm, ⟨28, _⟩ => ⟨S8x256x1024, .f32⟩
  | .hbm, ⟨29, _⟩ => ⟨S8x1x1024, .f32⟩
  | .hbm, ⟨30, _⟩ => ⟨S8x256x1024, .f32⟩
  | .hbm, ⟨31, _⟩ => ⟨S8x256x1024, .f32⟩
  | .hbm, ⟨32, _⟩ => ⟨S8x4096x1024, .f32⟩
  | .hbm, ⟨33, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_call0_cst : Ref sig .tc := ⟨.hbm, 21, rfl⟩
abbrev main_call0_v0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]

class Facts₀ : Prop where
  bcast_S1024x256_S1x1024x256_1_2 : S1024x256.BroadcastsInDim S1x1024x256 (![1, 2] : Fin 2 → Fin S1x1024x256.rank)
  bcast_S8x256_S8x1x256_0_2 : S8x256.BroadcastsInDim S8x1x256 (![0, 2] : Fin 2 → Fin S8x1x256.rank)
  bcast_S1x1024x256_S8x1024x256_0_1_2 : S1x1024x256.BroadcastsInDim S8x1024x256 (![0, 1, 2] : Fin 3 → Fin S8x1024x256.rank)
  bcast_S8x1x256_S8x1024x256_0_1_2 : S8x1x256.BroadcastsInDim S8x1024x256 (![0, 1, 2] : Fin 3 → Fin S8x1024x256.rank)
  bcast_S_S8x4096x256 : S_.BroadcastsInDim S8x4096x256 (![] : Fin 0 → Fin S8x4096x256.rank)
  bcast_S256x1024_S1x256x1024_1_2 : S256x1024.BroadcastsInDim S1x256x1024 (![1, 2] : Fin 2 → Fin S1x256x1024.rank)
  bcast_S8x1024_S8x1x1024_0_2 : S8x1024.BroadcastsInDim S8x1x1024 (![0, 2] : Fin 2 → Fin S8x1x1024.rank)
  bcast_S1x256x1024_S8x256x1024_0_1_2 : S1x256x1024.BroadcastsInDim S8x256x1024 (![0, 1, 2] : Fin 3 → Fin S8x256x1024.rank)
  bcast_S8x1x1024_S8x256x1024_0_1_2 : S8x1x1024.BroadcastsInDim S8x256x1024 (![0, 1, 2] : Fin 3 → Fin S8x256x1024.rank)
  dot_S8x512_S512x256_S8x256_1_0_0_1_n_n_wf : DotDims.WF S8x512 S512x256 S8x256 [1] [0] [0] [1] [] []
  dot_S8x512_S512x1024_S8x1024_1_0_0_1_n_n_wf : DotDims.WF S8x512 S512x1024 S8x1024 [1] [0] [0] [1] [] []
  dot_S8x4096x1024_S8x1024x256_S8x4096x256_2_1_1_2_0_0_wf : DotDims.WF S8x4096x1024 S8x1024x256 S8x4096x256 [2] [1] [1] [2] [0] [0]
  dot_S8x4096x256_S8x256x1024_S8x4096x1024_2_1_1_2_0_0_wf : DotDims.WF S8x4096x256 S8x256x1024 S8x4096x1024 [2] [1] [1] [2] [0] [0]

variable [Facts₀]

def dot_S8x512_S512x256_S8x256_1_0_0_1_n_n : DotDims S8x512 S512x256 S8x256 where
  lhsContracting := [1]
  rhsContracting := [0]
  lhsNonContracting := [0]
  rhsNonContracting := [1]
  lhsBatch := []
  rhsBatch := []
  wf := dot_S8x512_S512x256_S8x256_1_0_0_1_n_n_wf
def dot_S8x512_S512x1024_S8x1024_1_0_0_1_n_n : DotDims S8x512 S512x1024 S8x1024 where
  lhsContracting := [1]
  rhsContracting := [0]
  lhsNonContracting := [0]
  rhsNonContracting := [1]
  lhsBatch := []
  rhsBatch := []
  wf := dot_S8x512_S512x1024_S8x1024_1_0_0_1_n_n_wf
def dot_S8x4096x1024_S8x1024x256_S8x4096x256_2_1_1_2_0_0 : DotDims S8x4096x1024 S8x1024x256 S8x4096x256 where
  lhsContracting := [2]
  rhsContracting := [1]
  lhsNonContracting := [1]
  rhsNonContracting := [2]
  lhsBatch := [0]
  rhsBatch := [0]
  wf := dot_S8x4096x1024_S8x1024x256_S8x4096x256_2_1_1_2_0_0_wf
def dot_S8x4096x256_S8x256x1024_S8x4096x1024_2_1_1_2_0_0 : DotDims S8x4096x256 S8x256x1024 S8x4096x1024 where
  lhsContracting := [2]
  rhsContracting := [1]
  lhsNonContracting := [1]
  rhsNonContracting := [2]
  lhsBatch := [0]
  rhsBatch := [0]
  wf := dot_S8x4096x256_S8x256x1024_S8x4096x1024_2_1_1_2_0_0_wf

class Facts : Prop extends Facts₀ where

variable [Facts]
-- ==== Proof.LibAdapter.lean ====
/-
  A dense layer whose weight matrix is scaled column by column and shifted, on one row, in two arrangements.

  Take a row `x` of `K` entries, a `[K, N]` matrix `w`, and per output column `q` a scale `g q` and a shift `β q`.
  The FUSED arrangement first builds the modulated weight `w (k, q) · g q + β q` and then contracts:
  `∑ₖ x k · (w (k, q) · g q + β q)`. The SPLIT arrangement contracts with the shared weight once and corrects
  afterwards: `g q · ∑ₖ x k · w (k, q) + β q · ∑ₖ x k`. On real numbers these are equal by distributivity; on the
  extended reals distributivity fails at the infinities, so the law is stated for entries that are real numbers
  (`IsReal`), a property closed under sums, products and maxima.

  Two such layers with a clamp at zero between them and the input row added back at the end make a conditional
  bottleneck adapter (`adapterSplit`, `adapterFused`), stated over whole `[B, S, D]` arrays with the scales and shifts
  given per batch entry; the two arrangements agree on real tables (`adapterSplit_eq_adapterFused`).

  Everything is generic in the extents.
-/
import Idealize.ShloMosaic.PureOps.Ideal
import Idealize.ShloMosaic.PureOps.Ideal.Laws
import Idealize.ShloMosaic.Lib.ValueIdx

noncomputable section

namespace Cert.Adapter

open Idealize.ShloMosaic Idealize.ShloMosaic.ValueIdx

/-! ## Extended reals that are real numbers -/

/-- An extended real that is a real number (neither infinity). -/
def IsReal (x : EReal) : Prop := ∃ r : ℝ, x = (r : EReal)

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  rcases max_choice x y with h | h <;> rw [h] <;> assumption

theorem IsReal.sum {ι : Type*} (s : Finset ι) (f : ι → EReal) (h : ∀ i ∈ s, IsReal (f i)) : IsReal (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

/-- The zero a program writes as the all-zero word is the real number zero. -/
theorem isReal_zeroWord : IsReal (Ideal.ofBits .f32 0x00000000#32) := ⟨0, by rw [Ideal.ofBits_zero_f32]; rfl⟩

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## One layer on one row -/

/-- A `[p, q]` table of extended reals, indexed as the arrays are. -/
abbrev Tab (p q : ℕ) : Type := (⟨2, ![p, q]⟩ : Shape).Idx → EReal

variable {K N : ℕ}

/-- Contract with the shared weight once, then scale, and add the shift times the row's sum. -/
def affSplit (x : Fin K → EReal) (w : Tab K N) (g β : Fin N → EReal) (q : Fin N) : EReal :=
  g q * (∑ k : Fin K, x k * w (ix2 k q)) + β q * (∑ k : Fin K, x k)

/-- Build the modulated weight `w · g + β` entry by entry, then contract. -/
def affFused (x : Fin K → EReal) (w : Tab K N) (g β : Fin N → EReal) (q : Fin N) : EReal :=
  ∑ k : Fin K, x k * (w (ix2 k q) * g q + β q)

/-- On real entries the two arrangements are equal: `∑ₖ xₖ (wₖ g + β) = g ∑ₖ xₖ wₖ + β ∑ₖ xₖ`. -/
theorem affSplit_eq_affFused (x : Fin K → EReal) (w : Tab K N) (g β : Fin N → EReal) (q : Fin N)
    (hx : ∀ k, IsReal (x k)) (hw : ∀ i, IsReal (w i)) (hg : IsReal (g q)) (hβ : IsReal (β q)) :
    affSplit x w g β q = affFused x w g β q := by
  unfold affSplit affFused
  choose xr hxr using hx
  choose wr hwr using hw
  obtain ⟨gr, hgr⟩ := hg
  obtain ⟨br, hbr⟩ := hβ
  simp only [hxr, hwr, hgr, hbr, ← EReal.coe_mul, ← EReal.coe_add, ← coe_sum]
  refine congrArg _ ?_
  rw [Finset.mul_sum, Finset.mul_sum, ← Finset.sum_add_distrib]
  exact Finset.sum_congr rfl fun k _ => by ring

theorem isReal_affFused (x : Fin K → EReal) (w : Tab K N) (g β : Fin N → EReal) (q : Fin N)
    (hx : ∀ k, IsReal (x k)) (hw : ∀ i, IsReal (w i)) (hg : IsReal (g q)) (hβ : IsReal (β q)) :
    IsReal (affFused x w g β q) :=
  IsReal.sum _ _ fun k _ => (hx k).mul (((hw _).mul hg).add hβ)

/-! ## Two layers, a clamp between them, and the residual -/

variable {D H : ℕ}

/-- One row of the adapter, each layer contracted with the shared weight and corrected afterwards. -/
def rowSplit (x : Fin D → EReal) (dn : Tab D H) (up : Tab H D) (g₁ β₁ : Fin H → EReal) (g₂ β₂ : Fin D → EReal)
    (d : Fin D) : EReal :=
  affSplit (fun h => max (affSplit x dn g₁ β₁ h) (Ideal.ofBits .f32 0x00000000#32)) up g₂ β₂ d + x d

/-- One row of the adapter, each layer contracted with its modulated weight. -/
def rowFused (x : Fin D → EReal) (dn : Tab D H) (up : Tab H D) (g₁ β₁ : Fin H → EReal) (g₂ β₂ : Fin D → EReal)
    (d : Fin D) : EReal :=
  affFused (fun h => max (affFused x dn g₁ β₁ h) (Ideal.ofBits .f32 0x00000000#32)) up g₂ β₂ d + x d

theorem rowSplit_eq_rowFused (x : Fin D → EReal) (dn : Tab D H) (up : Tab H D) (g₁ β₁ : Fin H → EReal)
    (g₂ β₂ : Fin D → EReal) (d : Fin D) (hx : ∀ k, IsReal (x k)) (hdn : ∀ i, IsReal (dn i)) (hup : ∀ i, IsReal (up i))
    (hg₁ : ∀ h, IsReal (g₁ h)) (hβ₁ : ∀ h, IsReal (β₁ h)) (hg₂ : IsReal (g₂ d)) (hβ₂ : IsReal (β₂ d)) :
    rowSplit x dn up g₁ β₁ g₂ β₂ d = rowFused x dn up g₁ β₁ g₂ β₂ d := by
  unfold rowSplit rowFused
  have e : (fun h => max (affSplit x dn g₁ β₁ h) (Ideal.ofBits .f32 0x00000000#32))
      = fun h => max (affFused x dn g₁ β₁ h) (Ideal.ofBits .f32 0x00000000#32) :=
    funext fun h => by rw [affSplit_eq_affFused x dn g₁ β₁ h hx hdn (hg₁ h) (hβ₁ h)]
  rw [e, affSplit_eq_affFused _ up g₂ β₂ d
    (fun h => (isReal_affFused x dn g₁ β₁ h hx hdn (hg₁ h) (hβ₁ h)).max isReal_zeroWord) hup hg₂ hβ₂]

/-! ## Whole arrays -/

variable {B S C : ℕ}

/-- A `[p, q, r]` array of extended reals, indexed as the arrays are. -/
abbrev Arr3 (p q r : ℕ) : Type := (⟨3, ![p, q, r]⟩ : Shape).Idx → EReal

/-- The per-batch coefficients: row `b` of the conditions times a `[C, N]` table, at column `q`. -/
def coef (cond : Tab B C) (t : Tab C N) : Tab B N := fun i => ∑ c : Fin C, cond (ix2 (i 0) c) * t (ix2 c (i 1))

theorem isReal_coef (cond : Tab B C) (t : Tab C N) (hc : ∀ i, IsReal (cond i)) (ht : ∀ i, IsReal (t i)) (i) :
    IsReal (coef cond t i) := IsReal.sum _ _ fun c _ => (hc _).mul (ht _)

/-- The adapter over a `[B, S, D]` array, in the split arrangement: entry `(b, s, d)` is `rowSplit` of row `(b, s)`
    with batch entry `b`'s scales and shifts. -/
def adapterSplit (hs : Arr3 B S D) (dn : Tab D H) (up : Tab H D) (g₁ β₁ : Tab B H) (g₂ β₂ : Tab B D) : Arr3 B S D :=
  fun i => rowSplit (fun k => hs (ix3 (i 0) (i 1) k)) dn up (fun h => g₁ (ix2 (i 0) h)) (fun h => β₁ (ix2 (i 0) h))
    (fun d => g₂ (ix2 (i 0) d)) (fun d => β₂ (ix2 (i 0) d)) (i 2)

/-- The same in the fused arrangement. -/
def adapterFused (hs : Arr3 B S D) (dn : Tab D H) (up : Tab H D) (g₁ β₁ : Tab B H) (g₂ β₂ : Tab B D) : Arr3 B S D :=
  fun i => rowFused (fun k => hs (ix3 (i 0) (i 1) k)) dn up (fun h => g₁ (ix2 (i 0) h)) (fun h => β₁ (ix2 (i 0) h))
    (fun d => g₂ (ix2 (i 0) d)) (fun d => β₂ (ix2 (i 0) d)) (i 2)

/-- On real tables the two arrangements of the adapter are one array. -/
theorem adapterSplit_eq_adapterFused (hs : Arr3 B S D) (dn : Tab D H) (up : Tab H D) (g₁ β₁ : Tab B H) (g₂ β₂ : Tab B D)
    (hhs : ∀ i, IsReal (hs i)) (hdn : ∀ i, IsReal (dn i)) (hup : ∀ i, IsReal (up i)) (hg₁ : ∀ i, IsReal (g₁ i))
    (hβ₁ : ∀ i, IsReal (β₁ i)) (hg₂ : ∀ i, IsReal (g₂ i)) (hβ₂ : ∀ i, IsReal (β₂ i)) :
    adapterSplit hs dn up g₁ β₁ g₂ β₂ = adapterFused hs dn up g₁ β₁ g₂ β₂ :=
  funext fun i => rowSplit_eq_rowFused _ dn up _ _ _ _ (i 2) (fun _ => hhs _) hdn hup (fun _ => hg₁ _) (fun _ => hβ₁ _)
    (hg₂ _) (hβ₂ _)

end Cert.Adapter

end
-- ==== Proof.LibColumnLayout.lean ====
/-
  A column of row sums, laid along the rows and along the columns of a matrix, read at an index.

  A kernel that sums the rows of an `[a, b]` matrix with `keepdims` holds the sums as a column `[a, 1]`; it then
  either broadcasts that column over `b` columns, or transposes it into a row `[1, a]` and broadcasts the row over
  many rows. The lemmas here read each of those steps at an index given by its coordinates:

  * `multiReduction_add_rows_apply` — the sum over the second axis of `[a, b]`, at row `p`, is `∑ₖ src (p, k)`;
  * `shapeCast_a_a1_apply` — a vector `[a]` cast to the column `[a, 1]` reads, at `(i, u)`, the vector at `i`;
  * `broadcastTo_a1_ab_apply` — a column `[a, 1]` broadcast to `[a, b]` reads, at `(i, j)`, the column at `(i, 0)`;
  * `column_over_columns_apply` / `column_as_row_over_rows_apply` — the two compositions a kernel prints: the
    vector `w` as a column over all columns is `w i` at `(i, j)`, and as a transposed row over all rows is `w j`.

  All are generic in the extents and in the element type; none uses anything of the arithmetic.
-/
import Idealize.ShloMosaic.Lib.Pipeline.Value
import Idealize.ShloMosaic.Lib.ValueIdx
import Idealize.ShloMosaic.Lib.ValueLayout
import Idealize.ShloMosaic.PureOps.Ideal.Laws

namespace Cert.ColumnLayout

open Idealize.ShloMosaic Idealize.ShloMosaic.ValueIdx

variable {α : Type}

/-- The sum over the second axis of an `[a, b]` matrix, read at row `p` at the ideal values: the sum over the `b`
    entries of that row. -/
theorem multiReduction_add_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

/-- A vector `[a]` cast to the column `[a, 1]` reads, at `(i, u)`, the vector at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A vector `w` set as a column and broadcast over `b` columns: at `(i, j)` it is `w i`. -/
theorem column_over_columns_apply {a b : ℕ} (w : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (i : Fin a) (j : Fin b) :
    broadcastTo ⟨2, ![a, b]⟩ (shapeCast ⟨2, ![a, 1]⟩ w hc) hb (ix2 i j) = w (ix1 i) :=
  (broadcastTo_a1_ab_apply _ hb i j).trans (shapeCast_a_a1_apply w hc i 0)

/-- A vector `w` set as a column, transposed into a row, and broadcast over `a` rows: at `(i, j)` it is `w j`. -/
theorem column_as_row_over_rows_apply {a b : ℕ} (w : (⟨1, ![b]⟩ : Shape).Idx → α)
    (hc : (⟨1, ![b]⟩ : Shape).ShapeCasts ⟨2, ![b, 1]⟩) (ht : (⟨2, ![b, 1]⟩ : Shape).Transposes [1, 0] ⟨2, ![1, b]⟩)
    (hb : (⟨2, ![1, b]⟩ : Shape).Broadcasts ⟨2, ![a, b]⟩) (i : Fin a) (j : Fin b) :
    broadcastTo ⟨2, ![a, b]⟩ (transpose ⟨2, ![1, b]⟩ [1, 0] (shapeCast ⟨2, ![b, 1]⟩ w hc) ht) hb (ix2 i j) = w (ix1 j) :=
  (broadcastTo_1b_ab_apply _ hb i j).trans
    ((transpose_ix2_apply _ ht (0 : Fin 1) j).trans (shapeCast_a_a1_apply w hc j 0))

end Cert.ColumnLayout
-- ==== Proof.LibDenseLayer.lean ====
/-
  The dense half of a graph-convolution layer, as plain functions of matrices of extended reals.

  A layer multiplies an `[a, K]` matrix `x` by a `[K, N]` matrix `w` and then either clamps every entry at zero from
  below (`reluLayer`) or normalises every row by the softmax (`softmaxLayer`): the row's entries minus the row's
  maximum, exponentiated, divided by the row's sum of those exponentials. Everything is stated entry by entry, at
  the row `r` and the column `q`, so that it reads the same on a block of rows and on the whole matrix: entry
  `(r, q)` of either layer depends on `x` only through row `r` (`prodRow_congr`).

  Then each operation a vector program or a host program spells these layers with, read at an index at the ideal
  values: a matrix product into a zero accumulator and a `dot_general` as `prodRow` (for dimension numbers that
  contract the second axis of the left operand with the first of the right: `PlainDot`), a row maximum taken by a
  vector reduction or by a host reduction as the fold of `max` over the row, a host row sum as the initial value plus
  the sum over the row; and a vector program's whole row softmax (`vector_softmax_apply`), its column of row maxima and
  its column of row sums laid over the columns by a shape cast and a broadcast.

  All are generic in the extents.
-/
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws
import proofs.«156120_j43611097924302_1_alg».proof.Proof.LibColumnLayout

noncomputable section

namespace Cert.DenseLayer

open Idealize.ShloMosaic Idealize.ShloMosaic.ValueIdx

/-- A `[p, q]` matrix of extended reals, indexed as the arrays are. -/
abbrev Mat (p q : ℕ) : Type := (⟨2, ![p, q]⟩ : Shape).Idx → EReal

variable {a K N : ℕ}

/-! ## The layers -/

/-- Row `r` of the product `x · w`: in column `q` the sum over `k` of `x (r, k) · w (k, q)`. -/
def prodRow (x : Mat a K) (w : Mat K N) (r : Fin a) : Fin N → EReal :=
  fun q => ∑ k : Fin K, x (ix2 r k) * w (ix2 k q)

/-- A row of the product depends on the left matrix only through that row: two left matrices, of any heights,
    that agree along a row of each give the same row of products. -/
theorem prodRow_congr {a' : ℕ} (x : Mat a K) (x' : Mat a' K) (w : Mat K N) (r : Fin a) (r' : Fin a')
    (h : ∀ k, x (ix2 r k) = x' (ix2 r' k)) : prodRow x w r = prodRow x' w r' :=
  funext fun q => Finset.sum_congr rfl fun k _ => by rw [h k]

/-- The product clamped at zero from below, entry by entry (the zero written as the word a program writes). -/
def reluLayer (x : Mat a K) (w : Mat K N) : Mat a N :=
  fun i => max (prodRow x w (i 0) (i 1)) (Ideal.ofBits .f32 0x00000000#32)

/-- The maximum of a row, taken from `-∞` (the word a program writes) and once more against `-∞`. -/
def rowTop (z : Fin N → EReal) : EReal :=
  max (Ideal.ofBits .f32 0xFF800000#32) (Finset.univ.fold max (Ideal.ofBits .f32 0xFF800000#32) z)

/-- The softmax of a row at column `q`: `exp (z q - top)` over the sum of `exp (z j - top)` along the row. -/
def softmaxRow (z : Fin N → EReal) (q : Fin N) : EReal :=
  Ideal.div (Ideal.exp (z q - rowTop z)) (∑ j : Fin N, Ideal.exp (z j - rowTop z))

/-- The product with every row normalised by the softmax. -/
def softmaxLayer (x : Mat a K) (w : Mat K N) : Mat a N :=
  fun i => softmaxRow (prodRow x w (i 0)) (i 1)

theorem reluLayer_apply (x : Mat a K) (w : Mat K N) (r : Fin a) (q : Fin N) :
    reluLayer x w (ix2 r q) = max (prodRow x w r q) (Ideal.ofBits .f32 0x00000000#32) := rfl

theorem softmaxLayer_apply (x : Mat a K) (w : Mat K N) (r : Fin a) (q : Fin N) :
    softmaxLayer x w (ix2 r q) = softmaxRow (prodRow x w r) q := rfl

/-! ## A matrix product read at an index -/

/-- Dimension numbers of a plain product `[a, K] × [K, N] → [a, N]`: one contracted axis of extent `K`, the left
    operand read at `(row, k)` and the right at `(k, column)`. -/
structure PlainDot (d : DotDims ⟨2, ![a, K]⟩ ⟨2, ![K, N]⟩ ⟨2, ![a, N]⟩) : Prop where
  rank : d.contr.rank = 1
  size : d.contr.size ⟨0, by omega⟩ = K
  lhs0 : ∀ (i : (⟨2, ![a, N]⟩ : Shape).Idx) (q : d.contr.Idx), (d.lhsIdx i q 0).val = (i 0).val
  lhs1 : ∀ (i : (⟨2, ![a, N]⟩ : Shape).Idx) (q : d.contr.Idx), (d.lhsIdx i q 1).val = (q ⟨0, by omega⟩).val
  rhs0 : ∀ (i : (⟨2, ![a, N]⟩ : Shape).Idx) (q : d.contr.Idx), (d.rhsIdx i q 0).val = (q ⟨0, by omega⟩).val
  rhs1 : ∀ (i : (⟨2, ![a, N]⟩ : Shape).Idx) (q : d.contr.Idx), (d.rhsIdx i q 1).val = (i 1).val

/-- The contraction's sum over its own index type is the sum over `k : Fin K` of the row times the column. -/
theorem sum_contr_eq_prodRow {d : DotDims ⟨2, ![a, K]⟩ ⟨2, ![K, N]⟩ ⟨2, ![a, N]⟩} (hd : PlainDot d)
    (x : Mat a K) (w : Mat K N) (i : (⟨2, ![a, N]⟩ : Shape).Idx) :
    ∑ k : d.contr.Idx, x (d.lhsIdx i k) * w (d.rhsIdx i k) = prodRow x w (i 0) (i 1) := by
  unfold prodRow
  rw [← Equiv.sum_comp (contrEquiv1 d K hd.rank hd.size).symm]
  refine Finset.sum_congr rfl fun k _ => ?_
  have hk := contrEquiv1_symm_val d K hd.rank hd.size k
  have el : d.lhsIdx i ((contrEquiv1 d K hd.rank hd.size).symm k) = ix2 (i 0) k := funext fun ax => Fin.ext (by
    match ax with
    | ⟨0, _⟩ => exact hd.lhs0 _ _
    | ⟨1, _⟩ => exact (hd.lhs1 _ _).trans hk)
  have er : d.rhsIdx i ((contrEquiv1 d K hd.rank hd.size).symm k) = ix2 k (i 1) := funext fun ax => Fin.ext (by
    match ax with
    | ⟨0, _⟩ => exact (hd.rhs0 _ _).trans hk
    | ⟨1, _⟩ => exact hd.rhs1 _ _)
  rw [el, er]
  rfl

/-- A vector program's matrix product into the zero accumulator, at the ideal values, is `prodRow` entry by entry,
    whatever the operands' float formats. -/
theorem matmul_zero_apply {φ₁ φ₂ : FTy} {d : DotDims ⟨2, ![a, K]⟩ ⟨2, ![K, N]⟩ ⟨2, ![a, N]⟩} (hd : PlainDot d)
    (prec : Option ContractPrecision) (x : FVec Ideal ⟨2, ![a, K]⟩ φ₁) (w : FVec Ideal ⟨2, ![K, N]⟩ φ₂)
    (i : (⟨2, ![a, N]⟩ : Shape).Idx) :
    FloatOps.matmul d prec x w (constant ⟨2, ![a, N]⟩ .f32 0x00000000#32) i = prodRow x w (i 0) (i 1) :=
  (Ideal.matmul_constant_zero_apply d prec x w i).trans (sum_contr_eq_prodRow hd x w i)

/-- A host program's `dot_general`, at the ideal values, is `prodRow` entry by entry. -/
theorem dotGeneral_apply {φ₁ φ₂ : FTy} {d : DotDims ⟨2, ![a, K]⟩ ⟨2, ![K, N]⟩ ⟨2, ![a, N]⟩} (hd : PlainDot d)
    (prec : Option ContractPrecision) (sched : HostSchedule) (x : FVec Ideal ⟨2, ![a, K]⟩ φ₁)
    (w : FVec Ideal ⟨2, ![K, N]⟩ φ₂) (i : (⟨2, ![a, N]⟩ : Shape).Idx) :
    FloatOps.dotGeneral d prec sched x w i = prodRow x w (i 0) (i 1) :=
  (Ideal.dotGeneral_apply d prec sched x w i).trans (sum_contr_eq_prodRow hd x w i)

/-! ## A row's maximum and a row's sum read at an index -/

/-- Inserting the coordinate `k` on the second axis over the row index `p` gives `(p, k)`. -/
theorem lift_rows {b : ℕ} (h : (⟨2, ![a, b]⟩ : Shape).Reduces [1] ⟨1, ![a]⟩) (p : Fin a) (k : Fin b) :
    h.lift (ix1 p) k = ix2 p k :=
  funext fun ax => Fin.ext (by
    match ax with
    | ⟨0, _⟩ => rfl
    | ⟨1, _⟩ => rfl)

/-- A vector program's maximum over the second axis of `[a, b]`, at row `p` at the ideal values: the fold of `max`
    from the accumulator's value over the row's `b` entries. -/
theorem multiReduction_max_rows_apply {b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg (fun f : Fin b → EReal => (Finset.univ : Finset (Fin b)).fold max (Ideal.ofBits φ acc) f)
      (funext fun k => congrArg src (lift_rows h p k)))

/-- A host program's maximum over the second axis of `[a, b]`, at row `p` at the ideal values: the fold of `max`
    from the initial value over the row's `b` entries. -/
theorem hostReduce_max_rows_apply {b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := φ)) x init h' hu (ix1 p)
      = (Finset.univ : Finset (Fin b)).fold max (init (Shape.Idx.first hu)) (fun k => x (ix2 p k)) :=
  (Host.reduce_eq_fold_single (FloatOps.maximumf (F := Ideal) (φ := φ)) x init h' h hu (ix1 p)).trans
    (congrArg (fun f : Fin b → EReal => (Finset.univ : Finset (Fin b)).fold max (init (Shape.Idx.first hu)) f)
      (funext fun k => congrArg x (lift_rows h p k)))

/-! ## A vector program's row softmax read at an index -/

section VectorSoftmax

variable {b : ℕ} (z : FVec Ideal ⟨2, ![a, b]⟩ .f32)
  (hr : (⟨2, ![a, b]⟩ : Shape).Reduces [1] ⟨1, ![a]⟩) (hc : (⟨1, ![a]⟩ : Shape).ShapeCasts ⟨2, ![a, 1]⟩)
  (hb : (⟨2, ![a, 1]⟩ : Shape).Broadcasts ⟨2, ![a, b]⟩) (hφ : FKind.Formats .f32)
  (hmax : (0xFF800000#32 : BitVec 32) = FKind.maximumf.neutral .f32 hφ)
  (hadd : (0x00000000#32 : BitVec 32) = FKind.add.neutral .f32 hφ)

/-- The row maxima of `z` as a vector program takes them — the reduction from `-∞`, once more against a splat of
    `-∞` — set as a column and laid over the `b` columns. -/
def vecTop : FVec Ideal ⟨2, ![a, b]⟩ .f32 :=
  broadcastTo ⟨2, ![a, b]⟩
    (shapeCast ⟨2, ![a, 1]⟩
      (maximumf (broadcast ⟨1, ![a]⟩ (Scalar.ofBits (F := Ideal) .f32 0xFF800000#32))
        (multiReduction .maximumf [1] ⟨1, ![a]⟩ z 0xFF800000#32 hr hφ hmax)) hc) hb

/-- At `(p, q)` it is the maximum of row `p`, whatever the column. -/
theorem vecTop_apply (p : Fin a) (q : Fin b) :
    vecTop z hr hc hb hφ hmax (ix2 p q) = rowTop (fun k => z (ix2 p k)) :=
  (Cert.ColumnLayout.column_over_columns_apply _ hc hb p q).trans
    (congrArg (max (Ideal.ofBits .f32 0xFF800000#32)) (multiReduction_max_rows_apply z _ hr hφ hmax p))

/-- The whole row softmax of a vector program — the entries minus the laid-out row maxima, exponentiated, divided by
    their row sums laid out the same way — is `softmaxRow` of the row, entry by entry. -/
theorem vector_softmax_apply (p : Fin a) (q : Fin b) :
    divf (exp (subf z (vecTop z hr hc hb hφ hmax)))
        (broadcastTo ⟨2, ![a, b]⟩
          (shapeCast ⟨2, ![a, 1]⟩
            (multiReduction .add [1] ⟨1, ![a]⟩ (exp (subf z (vecTop z hr hc hb hφ hmax))) 0x00000000#32 hr hφ hadd) hc) hb)
        (ix2 p q)
      = softmaxRow (fun k => z (ix2 p k)) q := by
  have hE : ∀ k : Fin b, exp (subf z (vecTop z hr hc hb hφ hmax)) (ix2 p k)
      = Ideal.exp (z (ix2 p k) - rowTop (fun k => z (ix2 p k))) := fun k => by
    show Ideal.exp (z (ix2 p k) - vecTop z hr hc hb hφ hmax (ix2 p k)) = _
    rw [vecTop_apply]
  show Ideal.div (exp (subf z (vecTop z hr hc hb hφ hmax)) (ix2 p q)) _ = _
  rw [hE q, Cert.ColumnLayout.column_over_columns_apply, Cert.ColumnLayout.multiReduction_add_rows_apply]
  unfold softmaxRow
  exact congrArg (Ideal.div _) (Finset.sum_congr rfl fun k _ => hE k)

end VectorSoftmax

end Cert.DenseLayer

end
-- ==== Proof.LibPlainDot.lean ====
/-
  Dimension numbers of a plain matrix product, recognised from their axis lists.

  A contraction's dimension numbers name, for each operand, which axes are batch axes, which are carried to the
  result and which are summed over. For a product `[a, K] × [K, N] → [a, N]` with no batch axis, the left operand's
  second axis summed against the right operand's first, and the two remaining axes carried in order, the left operand
  is read at `(row, k)` and the right at `(k, column)`: the record is a `PlainDot`, so that the product at an index is
  the row-times-column sum `prodRow`. The lemma is generic in the extents and takes the six axis lists as equations,
  which hold by `rfl` of any record written with those lists.
-/
import Idealize.ShloMosaic.PureOps.Dims
import proofs.«156120_j43611097924302_1_alg».proof.Proof.LibDenseLayer

noncomputable section

namespace Cert.DenseLayer

open Idealize.ShloMosaic Idealize.ShloMosaic.ValueIdx

variable {a K N : ℕ}

/-- Two positions of one index that are equal as numbers hold the same coordinate. -/
theorem coord_val_congr {s : Shape} (i : s.Idx) (p q : ℕ) (hp : p < s.rank) (hq : q < s.rank) (h : p = q) :
    (i ⟨p, hp⟩).val = (i ⟨q, hq⟩).val := by subst h; rfl

/-- Dimension numbers with no batch axis that sum the left operand's axis 1 against the right operand's axis 0 and
    carry the left operand's axis 0 and then the right operand's axis 1 are those of a plain product. -/
theorem plainDot_of_axes (d : DotDims ⟨2, ![a, K]⟩ ⟨2, ![K, N]⟩ ⟨2, ![a, N]⟩)
    (hlc : d.lhsContracting = [1]) (hrc : d.rhsContracting = [0])
    (hln : d.lhsNonContracting = [0]) (hrn : d.rhsNonContracting = [1])
    (hlb : d.lhsBatch = []) (hrb : d.rhsBatch = []) : PlainDot d where
  rank := by rw [d.rank_contr, hlc]; rfl
  size := by
    have h := d.size_contr 0 (by rw [hlc]; exact Nat.one_pos)
    simp only [hlc, List.getElem_cons_zero] at h
    exact h
  lhs0 := fun i q => by
    have hb : (0 : Fin (⟨2, ![a, K]⟩ : Shape).rank) ∉ d.lhsBatch := by rw [hlb]; exact List.not_mem_nil
    have hn : (0 : Fin (⟨2, ![a, K]⟩ : Shape).rank) ∈ d.lhsNonContracting := by rw [hln]; exact List.mem_singleton.mpr rfl
    unfold DotDims.lhsIdx
    rw [dif_neg hb, dif_pos hn]
    simp only [Fin.val_cast]
    exact coord_val_congr i _ _ _ _ (by simp [hlb, hln])
  lhs1 := fun i q => d.lhsIdx_val_of_single hlc i q
  rhs0 := fun i q => d.rhsIdx_val_of_single hrc i q
  rhs1 := fun i q => by
    have hb : (1 : Fin (⟨2, ![K, N]⟩ : Shape).rank) ∉ d.rhsBatch := by rw [hrb]; exact List.not_mem_nil
    have hn : (1 : Fin (⟨2, ![K, N]⟩ : Shape).rank) ∈ d.rhsNonContracting := by rw [hrn]; exact List.mem_singleton.mpr rfl
    unfold DotDims.rhsIdx
    rw [dif_neg hb, dif_pos hn]
    simp only [Fin.val_cast]
    exact coord_val_congr i _ _ _ _ (by simp [hlb, hln, hrn])

end Cert.DenseLayer

end
-- ==== Proof.KernelRow.lean ====
/-
  What the kernel's body stores, read entry by entry at the ideal values, is the adapter's row in its split arrangement.

  The body holds a `[1024, 1024]` block `x` of input rows (one batch entry's), the shared down matrix `dn` and up matrix
  `up`, and the four rows of per-batch coefficients `g₁, β₁` (over the hidden columns) and `g₂, β₂` (over the output
  columns). It multiplies `x` by `dn` once, takes the row sums of `x`, forms `g₁ · (x · dn) + β₁ · rowsum x`, clamps at
  zero, and repeats the pattern with `up`, `g₂`, `β₂` on the clamped hidden block; at the end it adds `x` back. At the
  ideal values the casts to a narrower float format are the identity, a matrix product into a zero accumulator is the
  row-times-column sum, and a lane reduction is the row's sum, so the stored entry `(0, r, d)` is `rowSplit` of row `r`.
-/
import proofs.«156120_j43611097924302_1_alg».proof.Proof.Gen.KernelIdeal.Skeleton
import proofs.«156120_j43611097924302_1_alg».proof.Proof.LibAdapter
import proofs.«156120_j43611097924302_1_alg».proof.Proof.LibPlainDot

noncomputable section

namespace Cert.KernelIdeal.RowValue

open Cert.KernelIdeal Cert.KernelIdeal.Gen
open Idealize.ShloMosaic Idealize.ShloMosaic.ValueIdx Cert.Adapter

variable (x : Vec Ideal S1x1024x1024 .f32) (dn : Vec Ideal S1024x256 .bf16) (up : Vec Ideal S256x1024 .bf16)
  (g₁ β₁ : Vec Ideal S1x256 .f32) (g₂ β₂ : Vec Ideal S1x1024 .f32)

/-- A one-row table cast to a vector and back, then laid over `a` rows, reads its one row at the column. -/
theorem row_over_rows_apply {a b : ℕ} (v : (⟨2, ![1, b]⟩ : Shape).Idx → EReal)
    (h1 : (⟨2, ![1, b]⟩ : Shape).ShapeCasts ⟨1, ![b]⟩) (h2 : (⟨1, ![b]⟩ : Shape).ShapeCasts ⟨2, ![1, b]⟩)
    (hb : (⟨2, ![1, b]⟩ : Shape).Broadcasts ⟨2, ![a, b]⟩) (p : Fin a) (q : Fin b) :
    broadcastTo ⟨2, ![a, b]⟩ (shapeCast ⟨2, ![1, b]⟩ (shapeCast ⟨1, ![b]⟩ v h1) h2) hb (ix2 p q) = v (ix2 (0 : Fin 1) q) :=
  (broadcastTo_1b_ab_apply _ hb p q).trans ((shapeCast_a_1a_apply _ h2 0 q).trans (shapeCast_1a_a_apply v h1 q))

/-- The block with its leading unit axis dropped reads row `r` of the block. -/
theorem block_apply (r k : Fin 1024) : k0_pay2 x (ix2 r k) = x (ix3 (0 : Fin 1) r k) :=
  shapeCast_1ab_ab_apply x _ r k

/-- The clamped hidden block at `(r, h)`. -/
theorem hidden_apply (r : Fin 1024) (h : Fin 256) :
    k0_pay3 x dn g₁ β₁ (ix2 r h)
      = max (affSplit (fun k => x (ix3 (0 : Fin 1) r k)) dn (fun h => g₁ (ix2 (0 : Fin 1) h)) (fun h => β₁ (ix2 (0 : Fin 1) h)) h)
          (Ideal.ofBits .f32 0x00000000#32) := by
  unfold k0_pay3 affSplit
  refine congrArg (fun z => max z (Ideal.ofBits .f32 0x00000000#32)) ?_
  refine congrArg₂ (· + ·) (congrArg₂ (· * ·) (row_over_rows_apply g₁ _ _ _ r h) ?_)
    (congrArg₂ (· * ·) (row_over_rows_apply β₁ _ _ _ r h) ?_)
  · refine (Cert.DenseLayer.matmul_zero_apply (Cert.DenseLayer.plainDot_of_axes _ rfl rfl rfl rfl rfl rfl) none _ _ (ix2 r h)).trans ?_
    refine Finset.sum_congr rfl fun k _ => ?_
    exact congrArg₂ (· * ·) (block_apply x r k) (congrFun (shapeCast_self dn _) (ix2 k h))
  · refine (Cert.ColumnLayout.column_over_columns_apply _ _ _ r h).trans ?_
    refine (Cert.ColumnLayout.multiReduction_add_rows_apply _ _ _ _ _ r).trans ?_
    exact Finset.sum_congr rfl fun k _ => block_apply x r k

/-- The stored block at `(0, r, d)`: row `r` of the adapter in the split arrangement. -/
theorem stored_apply (r d : Fin 1024) :
    k0_pay1 (k0_pay2 x) (k0_pay4 x dn g₁ β₁ up g₂) (k0_pay5 β₂) (k0_pay6 x dn g₁ β₁) (ix3 (0 : Fin 1) r d)
      = rowSplit (fun k => x (ix3 (0 : Fin 1) r k)) dn up (fun h => g₁ (ix2 (0 : Fin 1) h)) (fun h => β₁ (ix2 (0 : Fin 1) h))
          (fun d => g₂ (ix2 (0 : Fin 1) d)) (fun d => β₂ (ix2 (0 : Fin 1) d)) d := by
  unfold k0_pay1
  refine (shapeCast_ab_1ab_apply _ _ 0 r d).trans ?_
  unfold rowSplit affSplit
  refine congrArg₂ (· + ·) (congrArg₂ (· + ·) ?_ (congrArg₂ (· * ·) ?_ ?_)) (block_apply x r d)
  · unfold k0_pay4
    refine congrArg₂ (· * ·) (row_over_rows_apply g₂ _ _ _ r d) ?_
    refine (Cert.DenseLayer.matmul_zero_apply (Cert.DenseLayer.plainDot_of_axes _ rfl rfl rfl rfl rfl rfl) none _ _ (ix2 r d)).trans ?_
    refine Finset.sum_congr rfl fun h _ => ?_
    exact congrArg₂ (· * ·) (hidden_apply x dn g₁ β₁ r h) (congrFun (shapeCast_self up _) (ix2 h d))
  · unfold k0_pay5
    exact row_over_rows_apply β₂ _ _ _ r d
  · unfold k0_pay6
    refine (Cert.ColumnLayout.column_over_columns_apply _ _ _ r d).trans ?_
    refine (Cert.ColumnLayout.multiReduction_add_rows_apply _ _ _ _ _ r).trans ?_
    exact Finset.sum_congr rfl fun h _ => hidden_apply x dn g₁ β₁ r h

/-- The same at any index `y` of the stored block: its leading coordinate is zero. -/
theorem stored_apply' (y : S1x1024x1024.Idx) :
    k0_pay1 (k0_pay2 x) (k0_pay4 x dn g₁ β₁ up g₂) (k0_pay5 β₂) (k0_pay6 x dn g₁ β₁) y
      = rowSplit (fun k => x (ix3 (0 : Fin 1) (y 1) k)) dn up (fun h => g₁ (ix2 (0 : Fin 1) h)) (fun h => β₁ (ix2 (0 : Fin 1) h))
          (fun d => g₂ (ix2 (0 : Fin 1) d)) (fun d => β₂ (ix2 (0 : Fin 1) d)) (y 2) := by
  have hlt : (y 0).val < 1 := (y 0).isLt
  have hy : y = ix3 (0 : Fin 1) (y 1) (y 2) := funext fun a => Fin.ext (by
    match a with
    | ⟨0, _⟩ => show (y 0).val = 0; omega
    | ⟨1, _⟩ => rfl
    | ⟨2, _⟩ => rfl)
  exact (congrArg _ hy).trans (stored_apply x dn up g₁ β₁ g₂ β₂ (y 1) (y 2))

/-- Two rows of the adapter with equal ingredients are equal. -/
theorem rowSplit_congr {D H : ℕ} {x x' : Fin D → EReal} {dn dn' : Tab D H} {up up' : Tab H D} {g₁ g₁' β₁ β₁' : Fin H → EReal}
    {g₂ g₂' β₂ β₂' : Fin D → EReal} {d d' : Fin D} (hx : x = x') (hdn : dn = dn') (hup : up = up') (hg₁ : g₁ = g₁')
    (hβ₁ : β₁ = β₁') (hg₂ : g₂ = g₂') (hβ₂ : β₂ = β₂') (hd : d = d') :
    rowSplit x dn up g₁ β₁ g₂ β₂ d = rowSplit x' dn' up' g₁' β₁' g₂' β₂' d' := by
  subst hx hdn hup hg₁ hβ₁ hg₂ hβ₂ hd; rfl

end Cert.KernelIdeal.RowValue

end
-- ==== Proof.KernelBlock.lean ====
/-
  The kernel's result array is the adapter in its split arrangement.

  The grid has a point per batch entry `b` and per block of 1024 consecutive rows; at that point the body finds block
  `(b, sb)` of the input in its staging buffer, the shared matrices and the four coefficient tables whole, and loads
  row `b` of each table. What it stores is `rowSplit` of each of the block's rows with row `b`'s coefficients, which is
  block `(b, sb)` of `adapterSplit` of the arrays as the region finds them. Every index of the result array lies in the
  block of exactly the point `(i₀, i₁ / 1024)`, so after the run the array is `adapterSplit` of those arrays: the input,
  the two matrices (cast to a narrower format by the host, which at the ideal values changes nothing) and the four
  coefficient tables (the host's products of the conditions with the coefficient matrices).
-/
import proofs.«156120_j43611097924302_1_alg».proof.Proof.Gen.KernelIdeal.Value
import proofs.«156120_j43611097924302_1_alg».proof.Proof.KernelRow
import Idealize.ShloMosaic.Lib.Pipeline.Value
import Idealize.ShloMosaic.Lib.StableHlo.Run
import Idealize.ShloMosaic.Lib.Tactic

noncomputable section

namespace Cert.KernelIdeal.BlockValue

open Cert.KernelIdeal Cert.KernelIdeal.Gen Idealize.ShloMosaic Idealize.ShloMosaic.TcCoe Idealize.SL.Sem
open Idealize.ShloMosaic.Pipeline (Dat)
open Idealize.ShloMosaic.ValueIdx Cert.Adapter

theorem hz3 : (![0, 0, 0] : Fin 3 → Nat) = fun _ => 0 := funext fun a => by fin_cases a <;> rfl
theorem hz2 : (![0, 0] : Fin 2 → Nat) = fun _ => 0 := funext fun a => by fin_cases a <;> rfl

/-! ## What the body stores -/

section Piece
variable {F : FTy → Type} [FloatOps F]

/-- Row `i 0` of an `[8, 256]` coefficient table, as the body loads it. -/
abbrev hiddenRow (i : grid0.Coords) (x : Vec F S8x256 .f32) : Vec F S1x256 .f32 :=
  View.ld x (Rect.unit (s := S8x256) (k0_off1 i) S1x256.size (k0_off1_inb i))
/-- Row `i 0` of an `[8, 1024]` coefficient table, as the body loads it. -/
abbrev outRow (i : grid0.Coords) (x : Vec F S8x1024 .f32) : Vec F S1x1024 .f32 :=
  View.ld x (Rect.unit (s := S8x1024) (k0_off2 i) S1x1024.size (k0_off2_inb i))

/-- What the body leaves in the output's staging buffer: its one covering store's payload, over the whole input
    buffers and the coefficient rows it loads. -/
theorem out_eq (c : Dev nD) (i : grid0.Coords) (a2 : Memref sig .tc .vmem S1x1024x1024 .f32) (h2 : a2.IsWhole) (a3 : Memref sig .tc .vmem S1024x256 .bf16) (h3 : a3.IsWhole) (a4 : Memref sig .tc .vmem S256x1024 .bf16) (h4 : a4.IsWhole) (a5 : Memref sig .tc .vmem S8x256 .f32) (h5 : a5.IsWhole) (a6 : Memref sig .tc .vmem S8x256 .f32) (h6 : a6.IsWhole) (a7 : Memref sig .tc .vmem S8x1024 .f32) (h7 : a7.IsWhole) (a8 : Memref sig .tc .vmem S8x1024 .f32) (h8 : a8.IsWhole) (a9 : Memref sig .tc .vmem S1x1024x1024 .f32) (h9 : a9.IsWhole)
    (x0 : Vec F S1x1024x1024 .f32) (x1 : Vec F S1024x256 .bf16) (x2 : Vec F S256x1024 .bf16) (x3 : Vec F S8x256 .f32) (x4 : Vec F S8x256 .f32) (x5 : Vec F S8x1024 .f32) (x6 : Vec F S8x1024 .f32) :
    out0_A_7 c i a2 h2 a3 h3 a4 h4 a5 h5 a6 h6 a7 h7 a8 h8 a9 h9 x0 x1 x2 x3 x4 x5 x6
      = k0_pay1 (k0_pay2 x0) (k0_pay4 x0 x1 (hiddenRow i x3) (hiddenRow i x4) x2 (outRow i x5)) (k0_pay5 (outRow i x6))
          (k0_pay6 x0 x1 (hiddenRow i x3) (hiddenRow i x4)) := by
  unfold out0_A_7
  rw [View.read_writes_eq_canon _ _ _ (cover0_A_7 c i a2 h2 a3 h3 a4 h4 a5 h5 a6 h6 a7 h7 a8 h8 a9 h9 x0 x1 x2 x3 x4 x5 x6)]
  unfold kernelRun0_A
  dsimp only
  sl_unfold_words
  rw [View.canon_unit_zero hz3]
  simp only [View.readAt_eq_ld, h2.read_unread, h3.read_unread, h4.read_unread, h5.read_unread, h6.read_unread,
    h7.read_unread, h8.read_unread, View.ld_unit_zero (S := S1x1024x1024) hz3, View.ld_unit_zero (S := S1024x256) hz2,
    View.ld_unit_zero (S := S256x1024) hz2]
  rfl

end Piece

/-- The loaded row of an `[8, 256]` table at point coordinates whose batch coordinate is `b` is the table's row `b`. -/
theorem hiddenRow_apply (i : grid0.Coords) (b : Fin 8) (hb : (i 0).val = b.val) (x : Vec Ideal S8x256 .f32) (h : Fin 256) :
    hiddenRow i x (ix2 (0 : Fin 1) h) = x (ix2 b h) := by
  show x ((Rect.unit (s := S8x256) (k0_off1 i) S1x256.size (k0_off1_inb i)).idx (ix2 (0 : Fin 1) h)) = x (ix2 b h)
  refine congrArg x (funext fun a => Fin.ext ?_)
  match a with
  | ⟨0, _⟩ => show k0_off1 i 0 + 1 * 0 = b.val; rw [k0_off1_eq]; show (i 0).val + 1 * 0 = b.val; omega
  | ⟨1, _⟩ => show k0_off1 i 1 + 1 * h.val = h.val; rw [k0_off1_eq]; show 0 + 1 * h.val = h.val; omega

/-- The same for an `[8, 1024]` table. -/
theorem outRow_apply (i : grid0.Coords) (b : Fin 8) (hb : (i 0).val = b.val) (x : Vec Ideal S8x1024 .f32) (d : Fin 1024) :
    outRow i x (ix2 (0 : Fin 1) d) = x (ix2 b d) := by
  show x ((Rect.unit (s := S8x1024) (k0_off2 i) S1x1024.size (k0_off2_inb i)).idx (ix2 (0 : Fin 1) d)) = x (ix2 b d)
  refine congrArg x (funext fun a => Fin.ext ?_)
  match a with
  | ⟨0, _⟩ => show k0_off2 i 0 + 1 * 0 = b.val; rw [k0_off2_eq]; show (i 0).val + 1 * 0 = b.val; omega
  | ⟨1, _⟩ => show k0_off2 i 1 + 1 * d.val = d.val; rw [k0_off2_eq]; show 0 + 1 * d.val = d.val; omega

/-! ## The arrays as the region finds them -/

variable (m : (ℓ : Loc nD τ sig) → Buf (Elt Ideal) ℓ) (ρ : Dev nD → PrngReg)

abbrev hsArr (c : Dev nD) : Vec Ideal S8x4096x1024 .f32 := V m c main_arg0
abbrev dnArr (c : Dev nD) : Vec Ideal S1024x256 .bf16 := V m c main_v4
abbrev upArr (c : Dev nD) : Vec Ideal S256x1024 .bf16 := V m c main_v5
abbrev g1Arr (c : Dev nD) : Vec Ideal S8x256 .f32 := V m c main_v0
abbrev b1Arr (c : Dev nD) : Vec Ideal S8x256 .f32 := V m c main_v1
abbrev g2Arr (c : Dev nD) : Vec Ideal S8x1024 .f32 := V m c main_v2
abbrev b2Arr (c : Dev nD) : Vec Ideal S8x1024 .f32 := V m c main_v3

/-- The adapter, split arrangement, of the arrays as the region finds them. -/
def regionFn (c : Dev nD) : Vec Ideal S8x4096x1024 .f32 :=
  adapterSplit (hsArr m c) (dnArr m c) (upArr m c) (g1Arr m c) (b1Arr m c) (g2Arr m c) (b2Arr m c)

/-- The printed index maps, decided over the 32 grid points: the input's and the output's blocks move together, one
    block per batch entry and per 1024 rows; the other windows never move; the point's first coordinate is the batch
    entry. -/
theorem idx_facts : ∀ t : Fin cfg0.N,
    win0_0.index t (0 : Fin 3) = win0_7.index t (0 : Fin 3) ∧ win0_0.index t (1 : Fin 3) = win0_7.index t (1 : Fin 3)
    ∧ win0_0.index t (2 : Fin 3) = 0 ∧ win0_7.index t (2 : Fin 3) = 0
    ∧ win0_7.index t (0 : Fin 3) < 8 ∧ win0_7.index t (1 : Fin 3) < 4
    ∧ (grid0.coords t 0).val = win0_7.index t (0 : Fin 3)
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- Every block of the result array is some point's. -/
theorem idx_onto : ∀ (q0 : Fin 8) (q1 : Fin 4), ∃ t : Fin cfg0.N, win0_7.index t = ![q0.val, q1.val, 0] :=
  (by decide +kernel : ∀ (q0 : Fin 8) (q1 : Fin 4), ∃ t : Fin grid0.N, win0_7.index t = ![q0.val, q1.val, 0])

/-- A window whose block is its whole array and never moves stages the array. -/
theorem iblk1_eq (c : Dev nD) (t : Fin cfg0.N) : iblk m c 1 t = dnArr m c := by
  obtain ⟨-, -, -, -, -, -, -, e0, e1, -⟩ := idx_facts t
  funext y
  show V m c main_v4 (((cfg0.win 1).blk t).view.emb y) = V m c main_v4 y
  refine congrArg (V m c main_v4) (funext fun a => Fin.ext ?_)
  match a with
  | ⟨0, _⟩ => show win0_1.index t (0 : Fin 2) * 1024 + 1 * (y 0).val = (y 0).val; omega
  | ⟨1, _⟩ => show win0_1.index t (1 : Fin 2) * 256 + 1 * (y 1).val = (y 1).val; omega

theorem iblk2_eq (c : Dev nD) (t : Fin cfg0.N) : iblk m c 2 t = upArr m c := by
  obtain ⟨-, -, -, -, -, -, -, -, -, e0, e1, -⟩ := idx_facts t
  funext y
  show V m c main_v5 (((cfg0.win 2).blk t).view.emb y) = V m c main_v5 y
  refine congrArg (V m c main_v5) (funext fun a => Fin.ext ?_)
  match a with
  | ⟨0, _⟩ => show win0_2.index t (0 : Fin 2) * 256 + 1 * (y 0).val = (y 0).val; omega
  | ⟨1, _⟩ => show win0_2.index t (1 : Fin 2) * 1024 + 1 * (y 1).val = (y 1).val; omega

theorem iblk3_eq (c : Dev nD) (t : Fin cfg0.N) : iblk m c 3 t = g1Arr m c := by
  obtain ⟨-, -, -, -, -, -, -, -, -, -, -, e0, e1, -⟩ := idx_facts t
  funext y
  show V m c main_v0 (((cfg0.win 3).blk t).view.emb y) = V m c main_v0 y
  refine congrArg (V m c main_v0) (funext fun a => Fin.ext ?_)
  match a with
  | ⟨0, _⟩ => show win0_3.index t (0 : Fin 2) * 8 + 1 * (y 0).val = (y 0).val; omega
  | ⟨1, _⟩ => show win0_3.index t (1 : Fin 2) * 256 + 1 * (y 1).val = (y 1).val; omega

theorem iblk4_eq (c : Dev nD) (t : Fin cfg0.N) : iblk m c 4 t = b1Arr m c := by
  obtain ⟨-, -, -, -, -, -, -, -, -, -, -, -, -, e0, e1, -⟩ := idx_facts t
  funext y
  show V m c main_v1 (((cfg0.win 4).blk t).view.emb y) = V m c main_v1 y
  refine congrArg (V m c main_v1) (funext fun a => Fin.ext ?_)
  match a with
  | ⟨0, _⟩ => show win0_4.index t (0 : Fin 2) * 8 + 1 * (y 0).val = (y 0).val; omega
  | ⟨1, _⟩ => show win0_4.index t (1 : Fin 2) * 256 + 1 * (y 1).val = (y 1).val; omega

theorem iblk5_eq (c : Dev nD) (t : Fin cfg0.N) : iblk m c 5 t = g2Arr m c := by
  obtain ⟨-, -, -, -, -, -, -, -, -, -, -, -, -, -, -, e0, e1, -⟩ := idx_facts t
  funext y
  show V m c main_v2 (((cfg0.win 5).blk t).view.emb y) = V m c main_v2 y
  refine congrArg (V m c main_v2) (funext fun a => Fin.ext ?_)
  match a with
  | ⟨0, _⟩ => show win0_5.index t (0 : Fin 2) * 8 + 1 * (y 0).val = (y 0).val; omega
  | ⟨1, _⟩ => show win0_5.index t (1 : Fin 2) * 1024 + 1 * (y 1).val = (y 1).val; omega

theorem iblk6_eq (c : Dev nD) (t : Fin cfg0.N) : iblk m c 6 t = b2Arr m c := by
  obtain ⟨-, -, -, -, -, -, -, -, -, -, -, -, -, -, -, -, -, e0, e1⟩ := idx_facts t
  funext y
  show V m c main_v3 (((cfg0.win 6).blk t).view.emb y) = V m c main_v3 y
  refine congrArg (V m c main_v3) (funext fun a => Fin.ext ?_)
  match a with
  | ⟨0, _⟩ => show win0_6.index t (0 : Fin 2) * 8 + 1 * (y 0).val = (y 0).val; omega
  | ⟨1, _⟩ => show win0_6.index t (1 : Fin 2) * 1024 + 1 * (y 1).val = (y 1).val; omega

/-! ## From the blocks to the array -/

/-- WHAT POINT `t` WRITES BACK is block `t` of the adapter of the arrays as the region finds them. -/
theorem flushed_eq (c : Dev nD) (t : Fin cfg0.N) :
    (dats m 0 c).flushed 7 t = ((cfg0.win 7).blk t).view.read (Elt Ideal) (regionFn m c) := by
  rw [Value.flushed7_A, out_eq, iblk1_eq, iblk2_eq, iblk3_eq, iblk4_eq, iblk5_eq, iblk6_eq]
  obtain ⟨e0, e1, e2, e3, l0, l1, eb, -⟩ := idx_facts t
  funext j
  have hj0 : (j 0).val < 1 := (j 0).isLt
  have hj1 : (j 1).val < 1024 := (j 1).isLt
  have hj2 : (j 2).val < 1024 := (j 2).isLt
  refine (RowValue.stored_apply' (iblk m c 0 t) (dnArr m c) (upArr m c) (hiddenRow (grid0.coords t) (g1Arr m c))
    (hiddenRow (grid0.coords t) (b1Arr m c)) (outRow (grid0.coords t) (g2Arr m c)) (outRow (grid0.coords t) (b2Arr m c))
    ((cfg0.win 7).xinj (grid0.coords t) j)).trans ?_
  show _ = rowSplit (fun k => hsArr m c (ix3 ((((cfg0.win 7).blk t).view.emb j) 0) ((((cfg0.win 7).blk t).view.emb j) 1) k))
    (dnArr m c) (upArr m c) (fun h => g1Arr m c (ix2 ((((cfg0.win 7).blk t).view.emb j) 0) h))
    (fun h => b1Arr m c (ix2 ((((cfg0.win 7).blk t).view.emb j) 0) h))
    (fun d => g2Arr m c (ix2 ((((cfg0.win 7).blk t).view.emb j) 0) d))
    (fun d => b2Arr m c (ix2 ((((cfg0.win 7).blk t).view.emb j) 0) d)) ((((cfg0.win 7).blk t).view.emb j) 2)
  have hb : (grid0.coords t 0).val = ((((cfg0.win 7).blk t).view.emb j) 0).val := by
    show _ = win0_7.index t (0 : Fin 3) * 1 + 1 * (j 0).val; omega
  refine RowValue.rowSplit_congr (funext fun k => ?_) rfl rfl
    (funext fun h => hiddenRow_apply _ _ hb _ h) (funext fun h => hiddenRow_apply _ _ hb _ h)
    (funext fun d => outRow_apply _ _ hb _ d) (funext fun d => outRow_apply _ _ hb _ d) (Fin.ext ?_)
  · show V m c main_arg0 (((cfg0.win 0).blk t).view.emb (ix3 (0 : Fin 1) (((cfg0.win 7).xinj (grid0.coords t) j) 1) k))
      = V m c main_arg0 (ix3 ((((cfg0.win 7).blk t).view.emb j) 0) ((((cfg0.win 7).blk t).view.emb j) 1) k)
    refine congrArg (V m c main_arg0) (funext fun a => Fin.ext ?_)
    match a with
    | ⟨0, _⟩ => show win0_0.index t (0 : Fin 3) * 1 + 1 * 0 = win0_7.index t (0 : Fin 3) * 1 + 1 * (j 0).val; omega
    | ⟨1, _⟩ => show win0_0.index t (1 : Fin 3) * 1024 + 1 * (j 1).val = win0_7.index t (1 : Fin 3) * 1024 + 1 * (j 1).val; omega
    | ⟨2, _⟩ => show win0_0.index t (2 : Fin 3) * 1024 + 1 * k.val = k.val; omega
  · show (j 2).val = win0_7.index t (2 : Fin 3) * 1024 + 1 * (j 2).val; omega

/-- An index of the array is in point `t`'s block iff each coordinate is in the block's range on its axis. -/
theorem mem_blk (t : Fin cfg0.N) (i : S8x4096x1024.Idx) :
    i ∈ ((cfg0.win 7).blk t).view.set ↔ ∀ a : Fin 3, win0_7.index t a * S1x1024x1024.size a ≤ (i a).val ∧ (i a).val < win0_7.index t a * S1x1024x1024.size a + S1x1024x1024.size a := by
  show i ∈ ((View.whole main_v6).slice (win0_7.rect t)).set ↔ _
  rw [View.set_slice_whole, Rect.mem_set_unit]
  exact Iff.rfl

/-- Every index of the result array is in the block of the point of its batch entry and its block of rows. -/
theorem covered (i : S8x4096x1024.Idx) : ∃ t : Fin cfg0.N, (cfg0.win 7).flush t = true ∧ i ∈ ((cfg0.win 7).blk t).view.set := by
  have hi0 : (i 0).val < 8 := (i 0).isLt
  have hi1 : (i 1).val < 4096 := (i 1).isLt
  have hi2 : (i 2).val < 1024 := (i 2).isLt
  obtain ⟨t, ht⟩ := idx_onto ⟨(i 0).val, hi0⟩ ⟨(i 1).val / 1024, by omega⟩
  have q0 : win0_7.index t (0 : Fin 3) = (i 0).val := congrFun ht 0
  have q1 : win0_7.index t (1 : Fin 3) = (i 1).val / 1024 := congrFun ht 1
  have q2 : win0_7.index t (2 : Fin 3) = 0 := congrFun ht 2
  refine ⟨t, flush0_7 t, ?_⟩
  rw [mem_blk]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 1024 ≤ (i 1).val ∧ (i 1).val < win0_7.index t (1 : Fin 3) * 1024 + 1024; omega
  | ⟨2, _⟩ => show win0_7.index t (2 : Fin 3) * 1024 ≤ (i 2).val ∧ (i 2).val < win0_7.index t (2 : Fin 3) * 1024 + 1024; omega

/-- THE ARRAY after the run: the adapter of the arrays as the region finds them. -/
theorem final (c : Dev nD) : (dats m 0 c).arrAt 7 cfg0.N = regionFn m c :=
  (dats m 0 c).arrAt_eq_of_cover 7 (regionFn m c) (fun t _ => flushed_eq m c t) covered

end Cert.KernelIdeal.BlockValue

end
-- ==== Proof.CoefDot.lean ====
/-
  The per-batch coefficients as the host computes them.

  A host contraction of the conditions `[B, C]` with a coefficient matrix `[C, N]` over the shared axis is, at the ideal
  values, the table `coef`: at `(b, q)` the sum over `c` of `cond (b, c) · t (c, q)`. Generic in the extents.
-/
import proofs.«156120_j43611097924302_1_alg».proof.Proof.LibAdapter
import proofs.«156120_j43611097924302_1_alg».proof.Proof.LibPlainDot

noncomputable section

namespace Cert.Adapter

open Idealize.ShloMosaic Idealize.ShloMosaic.ValueIdx

/-- A host `dot_general` with the dimension numbers of a plain product is the coefficient table. -/
theorem hostDot_eq_coef {B C N : ℕ} (d : DotDims ⟨2, ![B, C]⟩ ⟨2, ![C, N]⟩ ⟨2, ![B, N]⟩)
    (hd : Cert.DenseLayer.PlainDot d) (x : FVec Ideal ⟨2, ![B, C]⟩ .f32) (t : FVec Ideal ⟨2, ![C, N]⟩ .f32) :
    Host.dotGeneral d none x t = coef x t :=
  funext fun i => Cert.DenseLayer.dotGeneral_apply hd none .single x t i

end Cert.Adapter

end
-- ==== Proof.KernelRun.lean ====
/-
  The kernel program's run, read: its result array is the adapter, split arrangement, of the argument arrays.

  Before the region the host multiplies the conditions with the four coefficient matrices and casts the two shared
  matrices to a narrower float format; at the ideal values the casts change nothing and the products are the
  coefficient tables. So the arrays the region finds are the arguments themselves and the tables `coef` of them.
-/
import proofs.«156120_j43611097924302_1_alg».proof.Proof.KernelBlock
import proofs.«156120_j43611097924302_1_alg».proof.Proof.CoefDot

noncomputable section

namespace Cert.KernelIdeal.RunValue

open Cert.KernelIdeal Cert.KernelIdeal.Gen Cert.KernelIdeal.BlockValue
open Idealize.ShloMosaic Idealize.ShloMosaic.TcCoe Idealize.SL.Sem Idealize.ShloMosaic.StableHlo
open Idealize.ShloMosaic.ValueIdx Cert.Adapter

variable (m : (ℓ : Loc nD τ sig) → Buf (Elt Ideal) ℓ) (ρ : Dev nD → PrngReg)

/-- The adapter, split arrangement, of the program's eight argument arrays. -/
def resultFn (c : Dev nD) : Buf (Elt Ideal) ((c : Thread nD τ).loc main_v6) :=
  adapterSplit (m ((c : Thread nD τ).loc main_arg0)) (m ((c : Thread nD τ).loc main_arg2)) (m ((c : Thread nD τ).loc main_arg5))
    (coef (m ((c : Thread nD τ).loc main_arg1)) (m ((c : Thread nD τ).loc main_arg3)))
    (coef (m ((c : Thread nD τ).loc main_arg1)) (m ((c : Thread nD τ).loc main_arg4)))
    (coef (m ((c : Thread nD τ).loc main_arg1)) (m ((c : Thread nD τ).loc main_arg6)))
    (coef (m ((c : Thread nD τ).loc main_arg1)) (m ((c : Thread nD τ).loc main_arg7)))

theorem dn_eq (c : Dev nD) : dnArr m c = m ((c : Thread nD τ).loc main_arg2) := by
  show (V m c main_v4 : S1024x256.Idx → EReal) = _
  dsimp only [Gen.V, Gen.hostOps0]; after_results; rfl

theorem up_eq (c : Dev nD) : upArr m c = m ((c : Thread nD τ).loc main_arg5) := by
  show (V m c main_v5 : S256x1024.Idx → EReal) = _
  dsimp only [Gen.V, Gen.hostOps0]; after_results; rfl

theorem g1_eq (c : Dev nD) : g1Arr m c = coef (m ((c : Thread nD τ).loc main_arg1)) (m ((c : Thread nD τ).loc main_arg3)) := by
  have e : g1Arr m c
      = Host.dotGeneral (F := Ideal) (φ₁ := .f32) (φ₂ := .f32) dot_S8x512_S512x256_S8x256_1_0_0_1_n_n none (m ((c : Thread nD τ).loc main_arg1)) (m ((c : Thread nD τ).loc main_arg3)) := by
    show (V m c main_v0 : S8x256.Idx → EReal) = _
    dsimp only [Gen.V, Gen.hostOps0]; after_results
  exact e.trans (hostDot_eq_coef _ (Cert.DenseLayer.plainDot_of_axes _ rfl rfl rfl rfl rfl rfl) _ _)

theorem b1_eq (c : Dev nD) : b1Arr m c = coef (m ((c : Thread nD τ).loc main_arg1)) (m ((c : Thread nD τ).loc main_arg4)) := by
  have e : b1Arr m c
      = Host.dotGeneral (F := Ideal) (φ₁ := .f32) (φ₂ := .f32) dot_S8x512_S512x256_S8x256_1_0_0_1_n_n none (m ((c : Thread nD τ).loc main_arg1)) (m ((c : Thread nD τ).loc main_arg4)) := by
    show (V m c main_v1 : S8x256.Idx → EReal) = _
    dsimp only [Gen.V, Gen.hostOps0]; after_results
  exact e.trans (hostDot_eq_coef _ (Cert.DenseLayer.plainDot_of_axes _ rfl rfl rfl rfl rfl rfl) _ _)

theorem g2_eq (c : Dev nD) : g2Arr m c = coef (m ((c : Thread nD τ).loc main_arg1)) (m ((c : Thread nD τ).loc main_arg6)) := by
  have e : g2Arr m c
      = Host.dotGeneral (F := Ideal) (φ₁ := .f32) (φ₂ := .f32) dot_S8x512_S512x1024_S8x1024_1_0_0_1_n_n none (m ((c : Thread nD τ).loc main_arg1)) (m ((c : Thread nD τ).loc main_arg6)) := by
    show (V m c main_v2 : S8x1024.Idx → EReal) = _
    dsimp only [Gen.V, Gen.hostOps0]; after_results
  exact e.trans (hostDot_eq_coef _ (Cert.DenseLayer.plainDot_of_axes _ rfl rfl rfl rfl rfl rfl) _ _)

theorem b2_eq (c : Dev nD) : b2Arr m c = coef (m ((c : Thread nD τ).loc main_arg1)) (m ((c : Thread nD τ).loc main_arg7)) := by
  have e : b2Arr m c
      = Host.dotGeneral (F := Ideal) (φ₁ := .f32) (φ₂ := .f32) dot_S8x512_S512x1024_S8x1024_1_0_0_1_n_n none (m ((c : Thread nD τ).loc main_arg1)) (m ((c : Thread nD τ).loc main_arg7)) := by
    show (V m c main_v3 : S8x1024.Idx → EReal) = _
    dsimp only [Gen.V, Gen.hostOps0]; after_results
  exact e.trans (hostDot_eq_coef _ (Cert.DenseLayer.plainDot_of_axes _ rfl rfl rfl rfl rfl rfl) _ _)

/-- The adapter of the arrays as the region finds them is the adapter of the arguments. -/
theorem regionFn_eq (c : Dev nD) : regionFn m c = resultFn m c := by
  unfold regionFn resultFn
  rw [dn_eq, up_eq, g1_eq, b1_eq, g2_eq, b2_eq]
  exact congrArg (fun x => adapterSplit x _ _ _ _ _ _) (V_main_arg0 m c)

/-- The run, read: the result array at the adapter of the arguments, the arguments unchanged. -/
theorem run : θ_run defs (onTc (τ := τ) (main (F := Ideal))) ⟨m, fun _ => 0, ρ⟩ fun r => ∀ c : Dev nD,
      r.2.mem ((c : Thread nD τ).loc main_v6) = resultFn m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans ((final m c).trans (regionFn_eq m c)), (h c).2⟩)
    (Cert.KernelIdeal.Value.run_blocks m ρ)

end Cert.KernelIdeal.RunValue

end
-- ==== Proof.RefFused.lean ====
/-
  The reference program's result, read entry by entry, is the adapter in its fused arrangement.

  The reference builds, for every batch entry `b`, the modulated down weight `w↓ (b, k, h) = dn (k, h) · g₁ (b, h) + β₁ (b, h)`
  by broadcasting the shared matrix over the batch and the per-batch coefficients over the rows, contracts the input's row
  `(b, s)` with it, clamps at zero, does the same with the up weight `w↑ (b, h, d) = up (h, d) · g₂ (b, d) + β₂ (b, d)`, and adds
  the input back. The coefficients are the products of the conditions with the four coefficient tables. Read at the
  index `(b, s, d)` this is `rowFused` of the input's row `(b, s)` with batch entry `b`'s coefficients.
-/
import proofs.«156120_j43611097924302_1_alg».proof.Proof.Gen.ReferenceIdeal.Read
import proofs.«156120_j43611097924302_1_alg».proof.Proof.CoefDot

noncomputable section

namespace Cert.ReferenceIdeal.RefValue

open Cert.ReferenceIdeal Cert.ReferenceIdeal.Gen Cert.ReferenceIdeal.Read
open Idealize.ShloMosaic Idealize.ShloMosaic.ValueIdx Cert.Adapter

/-- Two indices of a rank-2 array with the same coordinates are equal. -/
local macro "idx2" : tactic =>
  `(tactic| (funext a; apply Fin.ext; match a with | ⟨0, _⟩ => rfl | ⟨1, _⟩ => rfl))
/-- Two indices of a rank-3 array with the same coordinates are equal. -/
local macro "idx3" : tactic =>
  `(tactic| (funext a; apply Fin.ext; match a with | ⟨0, _⟩ => rfl | ⟨1, _⟩ => rfl | ⟨2, _⟩ => rfl))

variable (x0 : (⟨S8x4096x1024, .f32⟩ : BufTy).Contents (Elt Ideal)) (x1 : (⟨S8x512, .f32⟩ : BufTy).Contents (Elt Ideal))
  (x2 : (⟨S1024x256, .f32⟩ : BufTy).Contents (Elt Ideal)) (x3 x4 : (⟨S512x256, .f32⟩ : BufTy).Contents (Elt Ideal))
  (x5 : (⟨S256x1024, .f32⟩ : BufTy).Contents (Elt Ideal)) (x6 x7 : (⟨S512x1024, .f32⟩ : BufTy).Contents (Elt Ideal))

/-! The per-batch coefficients the host computes are the conditions' rows times the table's columns. -/

theorem v0_eq : val_main_v0 (F := Ideal) x1 x3 = coef x1 x3 :=
  hostDot_eq_coef _ (Cert.DenseLayer.plainDot_of_axes _ rfl rfl rfl rfl rfl rfl) x1 x3
theorem v1_eq : val_main_v1 (F := Ideal) x1 x4 = coef x1 x4 :=
  hostDot_eq_coef _ (Cert.DenseLayer.plainDot_of_axes _ rfl rfl rfl rfl rfl rfl) x1 x4
theorem v2_eq : val_main_v2 (F := Ideal) x1 x6 = coef x1 x6 :=
  hostDot_eq_coef _ (Cert.DenseLayer.plainDot_of_axes _ rfl rfl rfl rfl rfl rfl) x1 x6
theorem v3_eq : val_main_v3 (F := Ideal) x1 x7 = coef x1 x7 :=
  hostDot_eq_coef _ (Cert.DenseLayer.plainDot_of_axes _ rfl rfl rfl rfl rfl rfl) x1 x7

/-- The modulated down weight at `(b, k, h)`. -/
theorem downWeight_apply (b : Fin 8) (k : Fin 1024) (h : Fin 256) :
    val_main_v11 (F := Ideal) x1 x2 x3 x4 (ix3 b k h) = x2 (ix2 k h) * coef x1 x3 (ix2 b h) + coef x1 x4 (ix2 b h) := by
  rw [val_main_v11_apply, val_main_v8_apply, val_main_v6_apply, val_main_v4_apply, val_main_v7_apply, val_main_v5_apply,
    val_main_v10_apply, val_main_v9_apply, v0_eq, v1_eq]
  have e1 : idx_main_v4 (idx_main_v6 (ix3 b k h)) = ix2 k h := by idx2
  have e2 : idx_main_v5 (idx_main_v7 (ix3 b k h)) = ix2 b h := by idx2
  have e3 : idx_main_v9 (idx_main_v10 (ix3 b k h)) = ix2 b h := by idx2
  rw [e1, e2, e3]
  rfl

/-- The modulated up weight at `(b, h, d)`. -/
theorem upWeight_apply (b : Fin 8) (h : Fin 256) (d : Fin 1024) :
    val_main_v21 (F := Ideal) x1 x5 x6 x7 (ix3 b h d) = x5 (ix2 h d) * coef x1 x6 (ix2 b d) + coef x1 x7 (ix2 b d) := by
  rw [val_main_v21_apply, val_main_v18_apply, val_main_v16_apply, val_main_v14_apply, val_main_v17_apply, val_main_v15_apply,
    val_main_v20_apply, val_main_v19_apply, v2_eq, v3_eq]
  have e1 : idx_main_v14 (idx_main_v16 (ix3 b h d)) = ix2 h d := by idx2
  have e2 : idx_main_v15 (idx_main_v17 (ix3 b h d)) = ix2 b d := by idx2
  have e3 : idx_main_v19 (idx_main_v20 (ix3 b h d)) = ix2 b d := by idx2
  rw [e1, e2, e3]
  rfl

/-- The clamped hidden row at `(b, s, h)`. -/
theorem hidden_apply (b : Fin 8) (s : Fin 4096) (h : Fin 256) :
    val_main_v13 (F := Ideal) x0 x1 x2 x3 x4 (ix3 b s h)
      = max (affFused (fun k => x0 (ix3 b s k)) x2 (fun h => coef x1 x3 (ix2 b h)) (fun h => coef x1 x4 (ix2 b h)) h)
          (Ideal.ofBits .f32 0x00000000#32) := by
  rw [val_main_v13_apply, val_main_v12_apply, val_main_call0_v0_apply, val_main_call0_cst_apply]
  unfold affFused
  refine congrArg (fun z => max z (Ideal.ofBits .f32 0x00000000#32)) (Finset.sum_congr rfl fun k _ => ?_)
  have e1 : lidx_main_v12 (ix3 b s h) k = ix3 b s k := by idx3
  have e2 : ridx_main_v12 (ix3 b s h) k = ix3 b k h := by idx3
  rw [e1, e2, downWeight_apply]

/-- The reference's result at `(b, s, d)`. -/
theorem result_apply (b : Fin 8) (s : Fin 4096) (d : Fin 1024) :
    val_main_v23 (F := Ideal) x0 x1 x2 x3 x4 x5 x6 x7 (ix3 b s d)
      = rowFused (fun k => x0 (ix3 b s k)) x2 x5 (fun h => coef x1 x3 (ix2 b h)) (fun h => coef x1 x4 (ix2 b h))
          (fun d => coef x1 x6 (ix2 b d)) (fun d => coef x1 x7 (ix2 b d)) d := by
  rw [val_main_v23_apply, val_main_v22_apply]
  unfold rowFused affFused
  refine congrArg (fun z => z + x0 (ix3 b s d)) (Finset.sum_congr rfl fun h _ => ?_)
  have e1 : lidx_main_v22 (ix3 b s d) h = ix3 b s h := by idx3
  have e2 : ridx_main_v22 (ix3 b s d) h = ix3 b h d := by idx3
  rw [e1, e2, hidden_apply, upWeight_apply]
  rfl

/-- The reference's result array is the adapter in the fused arrangement. -/
theorem result_eq :
    val_main_v23 (F := Ideal) x0 x1 x2 x3 x4 x5 x6 x7
      = adapterFused x0 x2 x5 (coef x1 x3) (coef x1 x4) (coef x1 x6) (coef x1 x7) := by
  funext i
  obtain ⟨b, s, d, rfl⟩ : ∃ (b : Fin 8) (s : Fin 4096) (d : Fin 1024), i = ix3 b s d := ⟨i 0, i 1, i 2, eq_ix3 i⟩
  exact result_apply x0 x1 x2 x3 x4 x5 x6 x7 b s d

end Cert.ReferenceIdeal.RefValue

end
-- ==== Proof.FiniteInputs.lean ====
/-
  The precondition read back: every entry of every input array is a real number.

  The precondition takes, for each of the eight input arrays, the entrywise comparison `|x| < +∞`, reduces each by
  `and` over all axes, and joins the eight results by `and`; it holds when the result is one. A conjunction that is
  one has both conjuncts one; a reduction by `and` over every axis that is one had a one at every index; and an
  extended real whose absolute value `max x (-x)` is below `+∞` is neither infinity.
-/
import proofs.«156120_j43611097924302_1_alg».proof.Pre_finite_inputs
import proofs.«156120_j43611097924302_1_alg».proof.Proof.LibAdapter
import Idealize.ShloMosaic.Lib.ReduceAll
import Idealize.ShloMosaic.Lib.ValueIdx

noncomputable section

namespace Cert.Pre_finite_inputs.Decode

open Cert.Pre_finite_inputs Idealize.ShloMosaic Idealize.ShloMosaic.ValueIdx Cert.Adapter

instance : Subsingleton S_.Idx := ⟨fun a b => funext fun d => d.elim0⟩

/-- The word `0x7F800000` denotes `+∞`. -/
theorem ofBits_inf : Ideal.ofBits .f32 0x7F800000#32 = (⊤ : EReal) := by
  simp [Ideal.ofBits, Ideal.ieee]

/-- An extended real whose absolute value is below `+∞` is a real number. -/
theorem isReal_of_abs_lt_inf (x : EReal)
    (h : FloatOps.cmpf (F := Ideal) (φ := .f32) .olt (FloatOps.hostAbsf (F := Ideal) (φ := .f32) x) (Ideal.ofBits .f32 0x7F800000#32) = 1#1) :
    IsReal x := by
  have h' : max x (-x) < (⊤ : EReal) := by
    rw [ofBits_inf] at h
    by_contra hn
    have : FloatOps.cmpf (F := Ideal) (φ := .f32) .olt (FloatOps.hostAbsf (F := Ideal) (φ := .f32) x) (⊤ : EReal) = 0#1 := by
      show BitVec.ofBool (decide (max x (-x) < (⊤ : EReal))) = 0#1
      rw [decide_eq_false hn]; rfl
    rw [this] at h
    exact absurd h (by decide)
  induction x using EReal.rec with
  | bot => exact absurd h' (by simp)
  | coe r => exact ⟨r, rfl⟩
  | top => exact absurd h' (by simp)

/-- One conjunct of the precondition: if the `and` over all indices of `|a| < +∞` is one, every entry of `a` is real. -/
theorem isReal_of_all {S : Shape} {axes : List (Fin S.rank)} (a bc : FVec Ideal S .f32)
    (hbc : ∀ i, bc i = Ideal.ofBits .f32 0x7F800000#32) (init : S_.Idx → BitVec 1) (hred : S.ReducesTo axes S_)
    (hu : 0 < S_.numel) (e : Host.reduce IntOp.andi (cmpf .olt (Host.absf a) bc) init hred hu ix0 = 1#1) (i : S.Idx) :
    IsReal (a i) := by
  have := Host.reduce_andi_all _ init hred hu ix0 e i
  refine isReal_of_abs_lt_inf (a i) ?_
  rw [← hbc i]
  exact this

variable [hP : Cert.Pre_finite_inputs.Facts]

/-- The precondition holds only of arrays all of whose entries are real numbers. -/
theorem isReal_of_pre (a0 : FVec Ideal S8x4096x1024 .f32) (a1 : FVec Ideal S8x512 .f32) (a2 : FVec Ideal S1024x256 .f32)
    (a3 a4 : FVec Ideal S512x256 .f32) (a5 : FVec Ideal S256x1024 .f32) (a6 a7 : FVec Ideal S512x1024 .f32)
    (h : fn (F := Ideal) a0 a1 a2 a3 a4 a5 a6 a7 = fun _ => 1#1) :
    (∀ i, IsReal (a0 i)) ∧ (∀ i, IsReal (a1 i)) ∧ (∀ i, IsReal (a2 i)) ∧ (∀ i, IsReal (a3 i)) ∧ (∀ i, IsReal (a4 i))
      ∧ (∀ i, IsReal (a5 i)) ∧ (∀ i, IsReal (a6 i)) ∧ (∀ i, IsReal (a7 i)) := by
  have h0 := congrFun h ix0
  dsimp only [fn, fn_part1, fn_part2] at h0
  obtain ⟨h0, c7⟩ := IntOp.andi_eq_one.1 h0
  obtain ⟨h0, c6⟩ := IntOp.andi_eq_one.1 h0
  obtain ⟨h0, c5⟩ := IntOp.andi_eq_one.1 h0
  obtain ⟨h0, c4⟩ := IntOp.andi_eq_one.1 h0
  obtain ⟨h0, c3⟩ := IntOp.andi_eq_one.1 h0
  obtain ⟨h0, c2⟩ := IntOp.andi_eq_one.1 h0
  obtain ⟨c0, c1⟩ := IntOp.andi_eq_one.1 h0
  exact ⟨isReal_of_all a0 _ (fun _ => rfl) _ _ _ c0, isReal_of_all a1 _ (fun _ => rfl) _ _ _ c1,
    isReal_of_all a2 _ (fun _ => rfl) _ _ _ c2, isReal_of_all a3 _ (fun _ => rfl) _ _ _ c3,
    isReal_of_all a4 _ (fun _ => rfl) _ _ _ c4, isReal_of_all a5 _ (fun _ => rfl) _ _ _ c5,
    isReal_of_all a6 _ (fun _ => rfl) _ _ _ c6, isReal_of_all a7 _ (fun _ => rfl) _ _ _ c7⟩

end Cert.Pre_finite_inputs.Decode

end
-- ==== Proof.lean ====
/-
  A conditional bottleneck adapter: the kernel's split arrangement against the reference's fused arrangement.

  Both programs compute, for an input `hs [8, 4096, 1024]`, conditions `cond [8, 512]`, shared matrices `dn [1024, 256]`
  and `up [256, 1024]` and four coefficient matrices, the per-batch coefficients `g₁, β₁ [8, 256]` and `g₂, β₂ [8, 1024]`
  (the conditions times the coefficient matrices), then
      hidden (b, s, h) = max (∑ₖ hs (b, s, k) · (dn (k, h) · g₁ (b, h) + β₁ (b, h))) 0,
      out (b, s, d)    = ∑ₕ hidden (b, s, h) · (up (h, d) · g₂ (b, d) + β₂ (b, d)) + hs (b, s, d).
  The reference builds the modulated weights and contracts with them (the fused arrangement). The kernel contracts
  with the shared matrices once and corrects afterwards: `g · (x · w) + β · rowsum x` (the split arrangement), one block
  of 1024 rows of one batch entry per grid point. The two agree by distributivity, which on the extended reals needs
  every entry to be a real number: that is what the precondition (all inputs finite) gives, and sums, products and
  maxima of real numbers are real.

  The frames are the generated ones (the reference's: its generated run with the result dropped). The kernel's value
  is read off its generated blockwise run (Proof/KernelBlock.lean, Proof/KernelRun.lean over Proof/KernelRow.lean), the
  reference's off its generated run and read-at-an-index lemmas (Proof/RefFused.lean); the law is in
  Proof/LibAdapter.lean and the precondition is read back in Proof/FiniteInputs.lean.
-/
import proofs.«156120_j43611097924302_1_alg».proof.Defs
import proofs.«156120_j43611097924302_1_alg».proof.Proof.Gen.Kernel
import proofs.«156120_j43611097924302_1_alg».proof.Proof.Gen.Kernel.Skeleton
import proofs.«156120_j43611097924302_1_alg».proof.Proof.Gen.Kernel.Launch
import proofs.«156120_j43611097924302_1_alg».proof.Proof.Gen.Kernel.Points
import proofs.«156120_j43611097924302_1_alg».proof.Proof.Gen.Kernel.Frame
import proofs.«156120_j43611097924302_1_alg».proof.Proof.Gen.KernelIdeal
import proofs.«156120_j43611097924302_1_alg».proof.Proof.Gen.KernelIdeal.Skeleton
import proofs.«156120_j43611097924302_1_alg».proof.Proof.Gen.KernelIdeal.Launch
import proofs.«156120_j43611097924302_1_alg».proof.Proof.Gen.KernelIdeal.Points
import proofs.«156120_j43611097924302_1_alg».proof.Proof.Gen.KernelIdeal.Frame
import proofs.«156120_j43611097924302_1_alg».proof.Proof.Gen.ReferenceIdeal
import proofs.«156120_j43611097924302_1_alg».proof.Proof.Gen.KernelIdeal.Value
import proofs.«156120_j43611097924302_1_alg».proof.Proof.Gen.ReferenceIdeal.Run
import proofs.«156120_j43611097924302_1_alg».proof.Proof.Gen.ReferenceIdeal.Read
import proofs.«156120_j43611097924302_1_alg».proof.Proof.Gen.Pre_finite_inputs
import proofs.«156120_j43611097924302_1_alg».proof.Proof.KernelRun
import proofs.«156120_j43611097924302_1_alg».proof.Proof.RefFused
import proofs.«156120_j43611097924302_1_alg».proof.Proof.FiniteInputs
import Idealize.ShloMosaic.Adequacy
import Idealize.ShloMosaic.Init

noncomputable section

namespace Cert.Proof

open Idealize.ShloMosaic Idealize.SL.Sem Cert.Adapter

/-- The kernel as printed runs and keeps its arguments: the generated frame. -/
theorem frame_k : @Cert.frame_Kernel Cert.Kernel.Gen.facts Cert.Pre_finite_inputs.Gen.facts :=
  fun m ρ _ => Cert.Kernel.Gen.frame m ρ

/-- The idealized kernel runs and keeps its arguments: the generated frame. -/
theorem frame_ki : @Cert.frame_KernelIdeal Cert.KernelIdeal.Gen.facts Cert.Pre_finite_inputs.Gen.facts :=
  fun m ρ _ => Cert.KernelIdeal.Gen.frame m ρ

/-- The reference runs and keeps its arguments: its generated run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- The ideal pass rewrote nothing. -/
theorem preserves : Cert.preserves_Kernel_KernelIdeal := trivial

/-- From arguments that agree, the kernel's result array ends at the adapter in the split arrangement and the
    reference's at the adapter in the fused arrangement, of the same real tables: one array. -/
theorem algebraic : @Cert.algebraic_KernelIdeal_ReferenceIdeal Cert.KernelIdeal.Gen.facts Cert.ReferenceIdeal.Gen.facts
    Cert.Pre_finite_inputs.Gen.facts := by
  intro m ρ m' ρ' hpre hagree
  refine ⟨fun c => Cert.KernelIdeal.RunValue.resultFn m c, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  obtain ⟨r0, r1, r2, r3, r4, r5, r6, r7⟩ := Cert.Pre_finite_inputs.Decode.isReal_of_pre _ _ _ _ _ _ _ _ (hpre c)
  rw [Cert.ReferenceIdeal.Read.val_main_v23_eq, Cert.ReferenceIdeal.RefValue.result_eq, (hagree c).1, (hagree c).2.1,
    (hagree c).2.2.1, (hagree c).2.2.2.1, (hagree c).2.2.2.2.1, (hagree c).2.2.2.2.2.1, (hagree c).2.2.2.2.2.2.1,
    (hagree c).2.2.2.2.2.2.2]
  exact (adapterSplit_eq_adapterFused _ _ _ _ _ _ _ r0 r2 r5 (isReal_coef _ _ r1 r3) (isReal_coef _ _ r1 r4)
    (isReal_coef _ _ r1 r6) (isReal_coef _ _ r1 r7)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
